-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v73)) (v2 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v73) = v1 c
          ∧ r.2.mem ((c.tc : Thread Cert.KernelIdeal.nD Cert.KernelIdeal.τ).loc Cert.KernelIdeal.main_v76) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_v75) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x17x256x256 : Shape := ⟨4, ![16, 17, 256, 256]⟩
abbrev S16x30x17x2 : Shape := ⟨4, ![16, 30, 17, 2]⟩
abbrev S_ : Shape := ⟨0, ![]⟩

class Facts : Prop where
  bcast_S_S16x17x256x256 : S_.BroadcastsInDim S16x17x256x256 (![] : Fin 0 → Fin S16x17x256x256.rank)
  reducesTo_S16x17x256x256_S_d0_1_2_3 : S16x17x256x256.ReducesTo [0, 1, 2, 3] S_
  h_S_ : 0 < S_.numel

variable [Facts]

def fn_part1 {F : FTy → Type} [FloatOps F] (main_v13 : IVec S_ 1) (main_v16 : IVec S16x17x256x256 1) : IVec S_ 1 :=
  let main_c_5 : IVec S_ 1 := constantI S_ 1 1#1
  let main_v17 : IVec S_ 1 := (fun x v => Host.reduce IntOp.andi x v reducesTo_S16x17x256x256_S_d0_1_2_3 h_S_) main_v16 main_c_5
  let main_v18 : IVec S_ 1 := andi main_v13 main_v17
  main_v18

def fn {F : FTy → Type} [FloatOps F] (main_arg0 : FVec F S16x17x256x256 .f32) (main_arg1 : FVec F S16x17x256x256 .f32) (main_arg2 : FVec F S16x17x256x256 .f32) (main_arg3 : FVec F S16x17x256x256 .f32) (main_arg4 : IVec S16x30x17x2 32) : IVec S_ 1 :=
  let main_v0 : FVec F S16x17x256x256 .f32 := Host.absf main_arg0
  let main_cst : FVec F S_ .f32 := constant S_ .f32 0x7F800000#32
  let main_v1 : FVec F S16x17x256x256 .f32 := broadcastInDim S16x17x256x256 ![] bcast_S_S16x17x256x256 main_cst
  let main_v2 : IVec S16x17x256x256 1 := cmpf .olt main_v0 main_v1
  let main_c : IVec S_ 1 := constantI S_ 1 1#1
  let main_v3 : IVec S_ 1 := (fun x v => Host.reduce IntOp.andi x v reducesTo_S16x17x256x256_S_d0_1_2_3 h_S_) main_v2 main_c
  let main_v4 : FVec F S16x17x256x256 .f32 := Host.absf main_arg1
  let main_cst_0 : FVec F S_ .f32 := constant S_ .f32 0x7F800000#32
  let main_v5 : FVec F S16x17x256x256 .f32 := broadcastInDim S16x17x256x256 ![] bcast_S_S16x17x256x256 main_cst_0
  let main_v6 : IVec S16x17x256x256 1 := cmpf .olt main_v4 main_v5
  let main_c_1 : IVec S_ 1 := constantI S_ 1 1#1
  let main_v7 : IVec S_ 1 := (fun x v => Host.reduce IntOp.andi x v reducesTo_S16x17x256x256_S_d0_1_2_3 h_S_) main_v6 main_c_1
  let main_v8 : IVec S_ 1 := andi main_v3 main_v7
  let main_v9 : FVec F S16x17x256x256 .f32 := Host.absf main_arg2
  let main_cst_2 : FVec F S_ .f32 := constant S_ .f32 0x7F800000#32
  let main_v10 : FVec F S16x17x256x256 .f32 := broadcastInDim S16x17x256x256 ![] bcast_S_S16x17x256x256 main_cst_2
  let main_v11 : IVec S16x17x256x256 1 := cmpf .olt main_v9 main_v10
  let main_c_3 : IVec S_ 1 := constantI S_ 1 1#1
  let main_v12 : IVec S_ 1 := (fun x v => Host.reduce IntOp.andi x v reducesTo_S16x17x256x256_S_d0_1_2_3 h_S_) main_v11 main_c_3
  let main_v13 : IVec S_ 1 := andi main_v8 main_v12
  let main_v14 : FVec F S16x17x256x256 .f32 := Host.absf main_arg3
  let main_cst_4 : FVec F S_ .f32 := constant S_ .f32 0x7F800000#32
  let main_v15 : FVec F S16x17x256x256 .f32 := broadcastInDim S16x17x256x256 ![] bcast_S_S16x17x256x256 main_cst_4
  let main_v16 : IVec S16x17x256x256 1 := cmpf .olt main_v14 main_v15
  fn_part1 (F := F) main_v13 main_v16
-- ==== Kernel.lean ====
abbrev S16x17x256x256 : Shape := ⟨4, ![16, 17, 256, 256]⟩
abbrev S16x30x17x2 : Shape := ⟨4, ![16, 30, 17, 2]⟩
abbrev S272x256x256 : Shape := ⟨3, ![272, 256, 256]⟩
abbrev S1x1 : Shape := ⟨2, ![1, 1]⟩
abbrev S16x256x256 : Shape := ⟨3, ![16, 256, 256]⟩
abbrev S16x256 : Shape := ⟨2, ![16, 256]⟩
abbrev S16x256x1 : Shape := ⟨3, ![16, 256, 1]⟩
abbrev S16x1 : Shape := ⟨2, ![16, 1]⟩
abbrev S16x1x1 : Shape := ⟨3, ![16, 1, 1]⟩
abbrev S1x1x1 : Shape := ⟨3, ![1, 1, 1]⟩
abbrev S_ : Shape := ⟨0, ![]⟩
abbrev S16x1114112 : Shape := ⟨2, ![16, 1114112]⟩
abbrev S16x30x17x1 : Shape := ⟨4, ![16, 30, 17, 1]⟩
abbrev S16x30x17 : Shape := ⟨3, ![16, 30, 17]⟩
abbrev S16x30 : Shape := ⟨2, ![16, 30]⟩
abbrev S16x30x1 : Shape := ⟨3, ![16, 30, 1]⟩
abbrev S16 : Shape := ⟨1, ![16]⟩
abbrev S30 : Shape := ⟨1, ![30]⟩
abbrev S16x1x30 : Shape := ⟨3, ![16, 1, 30]⟩
abbrev S16x30x30 : Shape := ⟨3, ![16, 30, 30]⟩
abbrev S30x30 : Shape := ⟨2, ![30, 30]⟩

abbrev nBuf : Space → Nat
  | .hbm => 117
  | .vmem => 8
  | .smem => 0
  | _ => 0

abbrev bufTy : (tb : Table) → Fin (tcTables nBuf tb) → BufTy
  | .hbm, ⟨0, _⟩ => ⟨S16x17x256x256, .f32⟩
  | .hbm, ⟨1, _⟩ => ⟨S16x17x256x256, .f32⟩
  | .hbm, ⟨2, _⟩ => ⟨S16x17x256x256, .f32⟩
  | .hbm, ⟨3, _⟩ => ⟨S16x17x256x256, .f32⟩
  | .hbm, ⟨4, _⟩ => ⟨S16x30x17x2, .i32⟩
  | .hbm, ⟨5, _⟩ => ⟨S272x256x256, .f32⟩
  | .hbm, ⟨6, _⟩ => ⟨S272x256x256, .f32⟩
  | .hbm, ⟨7, _⟩ => ⟨S272x256x256, .f32⟩
  | .hbm, ⟨8, _⟩ => ⟨S1x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S16x1114112, .f32⟩
  | .hbm, ⟨15, _⟩ => ⟨S16x30x17x1, .i32⟩
  | .hbm, ⟨16, _⟩ => ⟨S16x30x17, .i32⟩
  | .hbm, ⟨17, _⟩ => ⟨S16x30x17x1, .i32⟩
  | .hbm, ⟨18, _⟩ => ⟨S16x30x17, .i32⟩
  | .hbm, ⟨19, _⟩ => ⟨S_, .i32⟩
  | .hbm, ⟨20, _⟩ => ⟨S16x30x17, .i32⟩
  | .hbm, ⟨21, _⟩ => ⟨S16x30x17, .i1⟩
  | .hbm, ⟨22, _⟩ => ⟨S16x30x17, .f32⟩
  | .hbm, ⟨23, _⟩ => ⟨S_, .i32⟩
  | .hbm, ⟨24, _⟩ => ⟨S16x30x17, .i32⟩
  | .hbm, ⟨25, _⟩ => ⟨S16x30x17, .i1⟩
  | .hbm, ⟨26, _⟩ => ⟨S_, .i32⟩
  | .hbm, ⟨27, _⟩ => ⟨S16x30x17, .i32⟩
  | .hbm, ⟨28, _⟩ => ⟨S16x30x17, .i32⟩
  | .hbm, ⟨29, _⟩ => ⟨S16x30x17, .i32⟩
  | .hbm, ⟨30, _⟩ => ⟨S16x30x17x1, .i32⟩
  | .hbm, ⟨31, _⟩ => ⟨S16x30x17, .f32⟩
  | .hbm, ⟨32, _⟩ => ⟨S_, .f32⟩
  | .hbm, ⟨33, _⟩ => ⟨S16x30, .f32⟩
  | .hbm, ⟨34, _⟩ => ⟨S_, .f32⟩
  | .hbm, ⟨35, _⟩ => ⟨S16x30, .f32⟩
  | .hbm, ⟨36, _⟩ => ⟨S16x30, .i1⟩
  | .hbm, ⟨37, _⟩ => ⟨S_, .f32⟩
  | .hbm, ⟨38, _⟩ => ⟨S16x30, .f32⟩
  | .hbm, ⟨39, _⟩ => ⟨S16x30, .f32⟩
  | .hbm, ⟨40, _⟩ => ⟨S16x30x17, .f32⟩
  | .hbm, ⟨41, _⟩ => ⟨S_, .f32⟩
  | .hbm, ⟨42, _⟩ => ⟨S16x30, .f32⟩
  | .hbm, ⟨43, _⟩ => ⟨S16x30, .f32⟩
  | .hbm, ⟨44, _⟩ => ⟨S16x30x1, .f32⟩
  | .hbm, ⟨45, _⟩ => ⟨S16x30x17, .f32⟩
  | .hbm, ⟨46, _⟩ => ⟨S16x30x17, .f32⟩
  | .hbm, ⟨47, _⟩ => ⟨S16x30x17, .f32⟩
  | .hbm, ⟨48, _⟩ => ⟨S16x30x17, .f32⟩
  | .hbm, ⟨49, _⟩ => ⟨S_, .f32⟩
  | .hbm, ⟨50, _⟩ => ⟨S16x30, .f32⟩
  | .hbm, ⟨51, _⟩ => ⟨S16x30, .f32⟩
  | .hbm, ⟨52, _⟩ => ⟨S16x30, .f32⟩
  | .hbm, ⟨53, _⟩ => ⟨S_, .f32⟩
  | .hbm, ⟨54, _⟩ => ⟨S16, .f32⟩
  | .hbm, ⟨55, _⟩ => ⟨S_, .f32⟩
  | .hbm, ⟨56, _⟩ => ⟨S_, .f32⟩
  | .hbm, ⟨57, _⟩ => ⟨S30, .f32⟩
  | .hbm, ⟨58, _⟩ => ⟨S16x30, .f32⟩
  | .hbm, ⟨59, _⟩ => ⟨S16x30, .f32⟩
  | .hbm, ⟨60, _⟩ => ⟨S_, .f32⟩
  | .hbm, ⟨61, _⟩ => ⟨S16, .f32⟩
  | .hbm, ⟨62, _⟩ => ⟨S_, .f32⟩
  | .hbm, ⟨63, _⟩ => ⟨S16, .f32⟩
  | .hbm, ⟨64, _⟩ => ⟨S16, .f32⟩
  | .hbm, ⟨65, _⟩ => ⟨S16, .f32⟩
  | .hbm, ⟨66, _⟩ => ⟨S16x30x1, .f32⟩
  | .hbm, ⟨67, _⟩ => ⟨S16x1x30, .f32⟩
  | .hbm, ⟨68, _⟩ => ⟨S16x30x30, .f32⟩
  | .hbm, ⟨69, _⟩ => ⟨S16x30x30, .f32⟩
  | .hbm, ⟨70, _⟩ => ⟨S16x30x30, .f32⟩
  | .hbm, ⟨71, _⟩ => ⟨S16x30x1, .i1⟩
  | .hbm, ⟨72, _⟩ => ⟨S16x1x30, .i1⟩
  | .hbm, ⟨73, _⟩ => ⟨S16x30x30, .i1⟩
  | .hbm, ⟨74, _⟩ => ⟨S16x30x30, .i1⟩
  | .hbm, ⟨75, _⟩ => ⟨S16x30x30, .i1⟩
  | .hbm, ⟨76, _⟩ => ⟨S16x30x30, .f32⟩
  | .hbm, ⟨77, _⟩ => ⟨S16x30x30, .f32⟩
  | .hbm, ⟨78, _⟩ => ⟨S16x30x30, .f32⟩
  | .hbm, ⟨79, _⟩ => ⟨S_, .f32⟩
  | .hbm, ⟨80, _⟩ => ⟨S_, .f32⟩
  | .hbm, ⟨81, _⟩ => ⟨S30x30, .f32⟩
  | .hbm, ⟨82, _⟩ => ⟨S16x30x30, .f32⟩
  | .hbm, ⟨83, _⟩ => ⟨S16x30x30, .f32⟩
  | .hbm, ⟨84, _⟩ => ⟨S_, .f32⟩
  | .hbm, ⟨85, _⟩ => ⟨S16, .f32⟩
  | .hbm, ⟨86, _⟩ => ⟨S_, .f32⟩
  | .hbm, ⟨87, _⟩ => ⟨S16, .f32⟩
  | .hbm, ⟨88, _⟩ => ⟨S16, .f32⟩
  | .hbm, ⟨89, _⟩ => ⟨S16, .f32⟩
  | .hbm, ⟨90, _⟩ => ⟨S_, .f32⟩
  | .hbm, ⟨91, _⟩ => ⟨S16, .f32⟩
  | .hbm, ⟨92, _⟩ => ⟨S16, .f32⟩
  | .hbm, ⟨93, _⟩ => ⟨S_, .f32⟩
  | .hbm, ⟨94, _⟩ => ⟨S16, .f32⟩
  | .hbm, ⟨95, _⟩ => ⟨S16, .i1⟩
  | .hbm, ⟨96, _⟩ => ⟨S16, .f32⟩
  | .hbm, ⟨97, _⟩ => ⟨S16, .f32⟩
  | .hbm, ⟨98, _⟩ => ⟨S_, .f32⟩
  | .hbm, ⟨99, _⟩ => ⟨S16, .f32⟩
  | .hbm, ⟨100, _⟩ => ⟨S16, .f32⟩
  | .hbm, ⟨101, _⟩ => ⟨S_, .f32⟩
  | .hbm, ⟨102, _⟩ => ⟨S_, .f32⟩
  | .hbm, ⟨103, _⟩ => ⟨S16, .f32⟩
  | .hbm, ⟨104, _⟩ => ⟨S16, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .local _ .vmem, ⟨0, _⟩ => ⟨S16x256x256, .f32⟩
  | .local _ .vmem, ⟨1, _⟩ => ⟨S16x256x256, .f32⟩
  | .local _ .vmem, ⟨2, _⟩ => ⟨S16x256x256, .f32⟩
  | .local _ .vmem, ⟨3, _⟩ => ⟨S16x256x256, .f32⟩
  | .local _ .vmem, ⟨4, _⟩ => ⟨S16x256x256, .f32⟩
  | .local _ .vmem, ⟨5, _⟩ => ⟨S16x256x256, .f32⟩
  | .local _ .vmem, ⟨6, _⟩ => ⟨S1x1, .f32⟩
  | .local _ .vmem, ⟨7, _⟩ => ⟨S1x1, .f32⟩
  | _, _ => ⟨S16x17x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_cst_9 : Ref sig .tc := ⟨.hbm, 55, rfl⟩
abbrev main_call0_v0 : Ref sig .tc := ⟨.hbm, 56, rfl⟩
abbrev main_call0_v1 : Ref sig .tc := ⟨.hbm, 57, rfl⟩
abbrev main_call0_v2 : Ref sig .tc := ⟨.hbm, 58, rfl⟩
abbrev main_v39 : Ref sig .tc := ⟨.hbm, 59, rfl⟩
abbrev main_cst_10 : Ref sig .tc := ⟨.hbm, 60, rfl⟩
abbrev main_v40 : Ref sig .tc := ⟨.hbm, 61, rfl⟩
abbrev main_cst_11 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_12 : Ref sig .tc := ⟨.hbm, 79, rfl⟩
abbrev main_call1_v0 : Ref sig .tc := ⟨.hbm, 80, rfl⟩
abbrev main_call1_v1 : Ref sig .tc := ⟨.hbm, 81, rfl⟩
abbrev main_call1_v2 : Ref sig .tc := ⟨.hbm, 82, rfl⟩
abbrev main_v57 : Ref sig .tc := ⟨.hbm, 83, rfl⟩
abbrev main_cst_13 : Ref sig .tc := ⟨.hbm, 84, rfl⟩
abbrev main_v58 : Ref sig .tc := ⟨.hbm, 85, rfl⟩
abbrev main_cst_14 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_15 : Ref sig .tc := ⟨.hbm, 90, rfl⟩
abbrev main_v62 : Ref sig .tc := ⟨.hbm, 91, rfl⟩
abbrev main_v63 : Ref sig .tc := ⟨.hbm, 92, rfl⟩
abbrev main_cst_16 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_17 : Ref sig .tc := ⟨.hbm, 98, rfl⟩
abbrev main_v68 : Ref sig .tc := ⟨.hbm, 99, rfl⟩
abbrev main_v69 : Ref sig .tc := ⟨.hbm, 100, rfl⟩
abbrev main_cst_18 : Ref sig .tc := ⟨.hbm, 101, rfl⟩
abbrev main_call2_v0 : Ref sig .tc := ⟨.hbm, 102, rfl⟩
abbrev main_call2_v1 : Ref sig .tc := ⟨.hbm, 103, rfl⟩
abbrev main_v70 : Ref sig .tc := ⟨.hbm, 104, rfl⟩
abbrev main_cst_19 : Ref sig .tc := ⟨.hbm, 105, rfl⟩
abbrev main_v71 : Ref sig .tc := ⟨.hbm, 106, rfl⟩
abbrev main_cst_20 : Ref sig .tc := ⟨.hbm, 107, rfl⟩
abbrev main_v72 : Ref sig .tc := ⟨.hbm, 108, rfl⟩
abbrev main_cst_21 : Ref sig .tc := ⟨.hbm, 109, rfl⟩
abbrev main_v73 : Ref sig .tc := ⟨.hbm, 110, rfl⟩
abbrev main_cst_22 : Ref sig .tc := ⟨.hbm, 111, rfl⟩
abbrev main_v74 : Ref sig .tc := ⟨.hbm, 112, rfl⟩
abbrev main_cst_23 : Ref sig .tc := ⟨.hbm, 113, rfl⟩
abbrev main_v75 : Ref sig .tc := ⟨.hbm, 114, rfl⟩
abbrev main_cst_24 : Ref sig .tc := ⟨.hbm, 115, rfl⟩
abbrev main_v76 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![17], ![false]⟩

def k0_cond2 (i : grid0.Coords) : BitVec 1 :=
  let arg0 : BitVec 32 := BitVec.ofNat 32 (i 0).val
  let c16_i32 : BitVec 32 := 16#32
  let v24 : BitVec 1 := Scalar.cmpi .eq arg0 c16_i32
  let v25 : BitVec 32 := Scalar.extui v24
  let c0_i32_15 : BitVec 32 := 0#32
  let v26 : BitVec 1 := Scalar.cmpi .ne v25 c0_i32_15
  v26

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  shapeCasts_S16x17x256x256_S272x256x256 : S16x17x256x256.ShapeCasts S272x256x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S16x256x256_S16x256x256_0_0_0 : ∀ a, (![0, 0, 0] : Fin 3 → Nat) a + S16x256x256.size a ≤ S16x256x256.size a
  h_S16x256x256 : 0 < S16x256x256.numel
  shapeCasts_S16x256x256_S16x256x256 : S16x256x256.ShapeCasts S16x256x256
  reduces_S16x256x256_S16x256 : S16x256x256.Reduces [2] S16x256
  shapeCasts_S16x256_S16x256x1 : S16x256.ShapeCasts S16x256x1
  reduces_S16x256x1_S16x1 : S16x256x1.Reduces [1] S16x1
  shapeCasts_S16x1_S16x1x1 : S16x1.ShapeCasts S16x1x1
  reduces_S16x1x1_S1x1 : S16x1x1.Reduces [0] S1x1
  shapeCasts_S1x1_S1x1x1 : S1x1.ShapeCasts S1x1x1
  shapeCasts_S1x1x1_S1x1 : S1x1x1.ShapeCasts S1x1
  shapeCasts_S1x1_S_ : S1x1.ShapeCasts S_
  shapeCasts_S16x17x256x256_S16x1114112 : S16x17x256x256.ShapeCasts S16x1114112
  slices_S16x30x17x2_S16x30x17x1_0_0_0_0 : S16x30x17x2.Slices ![0, 0, 0, 0] S16x30x17x1
  shapeCasts_S16x30x17x1_S16x30x17 : S16x30x17x1.ShapeCasts S16x30x17
  slices_S16x30x17x2_S16x30x17x1_0_0_0_1 : S16x30x17x2.Slices ![0, 0, 0, 1] S16x30x17x1
  bcast_S_S16x30x17 : S_.BroadcastsInDim S16x30x17 (![] : Fin 0 → Fin S16x30x17.rank)
  bcast_S16x30x17_S16x30x17x1_0_1_2 : S16x30x17.BroadcastsInDim S16x30x17x1 (![0, 1, 2] : Fin 3 → Fin S16x30x17x1.rank)
  reducesTo_S16x30x17_S16x30_d2 : S16x30x17.ReducesTo [2] S16x30
  h_S_ : 0 < S_.numel
  bcast_S_S16x30 : S_.BroadcastsInDim S16x30 (![] : Fin 0 → Fin S16x30.rank)
  bcast_S16x30_S16x30x1_0_1 : S16x30.BroadcastsInDim S16x30x1 (![0, 1] : Fin 2 → Fin S16x30x1.rank)
  bcast_S16x30x1_S16x30x17_0_1_2 : S16x30x1.BroadcastsInDim S16x30x17 (![0, 1, 2] : Fin 3 → Fin S16x30x17.rank)
  reducesTo_S16x30_S16_d1 : S16x30.ReducesTo [1] S16
  bcast_S_S30 : S_.BroadcastsInDim S30 (![] : Fin 0 → Fin S30.rank)
  bcast_S30_S16x30_1 : S30.BroadcastsInDim S16x30 (![1] : Fin 1 → Fin S16x30.rank)
  bcast_S_S16 : S_.BroadcastsInDim S16 (![] : Fin 0 → Fin S16.rank)
  bcast_S16x30_S16x1x30_0_2 : S16x30.BroadcastsInDim S16x1x30 (![0, 2] : Fin 2 → Fin S16x1x30.rank)
  bcast_S16x30x1_S16x30x30_0_1_2 : S16x30x1.BroadcastsInDim S16x30x30 (![0, 1, 2] : Fin 3 → Fin S16x30x30.rank)
  bcast_S16x1x30_S16x30x30_0_1_2 : S16x1x30.BroadcastsInDim S16x30x30 (![0, 1, 2] : Fin 3 → Fin S16x30x30.rank)
  bcast_S_S30x30 : S_.BroadcastsInDim S30x30 (![] : Fin 0 → Fin S30x30.rank)
  bcast_S30x30_S16x30x30_1_2 : S30x30.BroadcastsInDim S16x30x30 (![1, 2] : Fin 2 → Fin S16x30x30.rank)
  reducesTo_S16x30x30_S16_d1_2 : S16x30x30.ReducesTo [1, 2] S16
  reducesTo_S16_S_d0 : S16.ReducesTo [0] S_
  gather_S16x1114112_S16x30x17x1_S16x30x17_n_1_0_0_1_3_11_wf : GatherDims.WF S16x1114112 S16x30x17x1 S16x30x17 [] [1] [0] [1] [0] 3 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x256.size a ≤ S272x256x256.size a
  hwx0_0 : ∀ i : grid0.Coords, EltTy.bits .f32 = 32 ∨ (Rect.block (s := S272x256x256) S16x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x256x256.size a ≤ S272x256x256.size a
  hwx0_1 : ∀ i : grid0.Coords, EltTy.bits .f32 = 32 ∨ (Rect.block (s := S272x256x256) S16x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x256x256.size a ≤ S272x256x256.size a
  hwx0_2 : ∀ i : grid0.Coords, EltTy.bits .f32 = 32 ∨ (Rect.block (s := S272x256x256) S16x256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def gather_S16x1114112_S16x30x17x1_S16x30x17_n_1_0_0_1_3_11 : GatherDims S16x1114112 S16x30x17x1 S16x30x17 where
  offsetDims := []
  collapsedSliceDims := [1]
  operandBatchingDims := [0]
  startIndicesBatchingDims := [0]
  startIndexMap := [1]
  indexVectorDim := 3
  sliceSizes := ![1, 1]
  wf := gather_S16x1114112_S16x30x17x1_S16x30x17_n_1_0_0_1_3_11_wf

abbrev win0_0 : Pipeline.Window sig grid0 :=
  Pipeline.Window.ofSpec (Memref.whole main_v0) S16x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S16x256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16x17x256x256 : Shape := ⟨4, ![16, 17, 256, 256]⟩
abbrev S16x30x17x2 : Shape := ⟨4, ![16, 30, 17, 2]⟩
abbrev S_ : Shape := ⟨0, ![]⟩
abbrev S16x1114112 : Shape := ⟨2, ![16, 1114112]⟩
abbrev S16x30x17x1 : Shape := ⟨4, ![16, 30, 17, 1]⟩
abbrev S16x30x17 : Shape := ⟨3, ![16, 30, 17]⟩
abbrev S16x30 : Shape := ⟨2, ![16, 30]⟩
abbrev S16x30x1 : Shape := ⟨3, ![16, 30, 1]⟩
abbrev S16 : Shape := ⟨1, ![16]⟩
abbrev S30 : Shape := ⟨1, ![30]⟩
abbrev S16x1x30 : Shape := ⟨3, ![16, 1, 30]⟩
abbrev S16x30x30 : Shape := ⟨3, ![16, 30, 30]⟩
abbrev S30x30 : Shape := ⟨2, ![30, 30]⟩

abbrev nBuf : Space → Nat
  | .hbm => 117
  | .vmem => 0
  | .smem => 0
  | _ => 0

abbrev bufTy : (tb : Table) → Fin (tcTables nBuf tb) → BufTy
  | .hbm, ⟨0, _⟩ => ⟨S16x17x256x256, .f32⟩
  | .hbm, ⟨1, _⟩ => ⟨S16x17x256x256, .f32⟩
  | .hbm, ⟨2, _⟩ => ⟨S16x17x256x256, .f32⟩
  | .hbm, ⟨3, _⟩ => ⟨S16x17x256x256, .f32⟩
  | .hbm, ⟨4, _⟩ => ⟨S16x30x17x2, .i32⟩
  | .hbm, ⟨5, _⟩ => ⟨S16x17x256x256, .f32⟩
  | .hbm, ⟨6, _⟩ => ⟨S16x17x256x256, .f32⟩
  | .hbm, ⟨7, _⟩ => ⟨S16x17x256x256, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S16x1114112, .f32⟩
  | .hbm, ⟨15, _⟩ => ⟨S16x30x17x1, .i32⟩
  | .hbm, ⟨16, _⟩ => ⟨S16x30x17, .i32⟩
  | .hbm, ⟨17, _⟩ => ⟨S16x30x17x1, .i32⟩
  | .hbm, ⟨18, _⟩ => ⟨S16x30x17, .i32⟩
  | .hbm, ⟨19, _⟩ => ⟨S_, .i32⟩
  | .hbm, ⟨20, _⟩ => ⟨S16x30x17, .i32⟩
  | .hbm, ⟨21, _⟩ => ⟨S16x30x17, .i1⟩
  | .hbm, ⟨22, _⟩ => ⟨S16x30x17, .f32⟩
  | .hbm, ⟨23, _⟩ => ⟨S_, .i32⟩
  | .hbm, ⟨24, _⟩ => ⟨S16x30x17, .i32⟩
  | .hbm, ⟨25, _⟩ => ⟨S16x30x17, .i1⟩
  | .hbm, ⟨26, _⟩ => ⟨S_, .i32⟩
  | .hbm, ⟨27, _⟩ => ⟨S16x30x17, .i32⟩
  | .hbm, ⟨28, _⟩ => ⟨S16x30x17, .i32⟩
  | .hbm, ⟨29, _⟩ => ⟨S16x30x17, .i32⟩
  | .hbm, ⟨30, _⟩ => ⟨S16x30x17x1, .i32⟩
  | .hbm, ⟨31, _⟩ => ⟨S16x30x17, .f32⟩
  | .hbm, ⟨32, _⟩ => ⟨S_, .f32⟩
  | .hbm, ⟨33, _⟩ => ⟨S16x30, .f32⟩
  | .hbm, ⟨34, _⟩ => ⟨S_, .f32⟩
  | .hbm, ⟨35, _⟩ => ⟨S16x30, .f32⟩
  | .hbm, ⟨36, _⟩ => ⟨S16x30, .i1⟩
  | .hbm, ⟨37, _⟩ => ⟨S_, .f32⟩
  | .hbm, ⟨38, _⟩ => ⟨S16x30, .f32⟩
  | .hbm, ⟨39, _⟩ => ⟨S16x30, .f32⟩
  | .hbm, ⟨40, _⟩ => ⟨S16x30x17, .f32⟩
  | .hbm, ⟨41, _⟩ => ⟨S_, .f32⟩
  | .hbm, ⟨42, _⟩ => ⟨S16x30, .f32⟩
  | .hbm, ⟨43, _⟩ => ⟨S16x30, .f32⟩
  | .hbm, ⟨44, _⟩ => ⟨S16x30x1, .f32⟩
  | .hbm, ⟨45, _⟩ => ⟨S16x30x17, .f32⟩
  | .hbm, ⟨46, _⟩ => ⟨S16x30x17, .f32⟩
  | .hbm, ⟨47, _⟩ => ⟨S16x30x17, .f32⟩
  | .hbm, ⟨48, _⟩ => ⟨S16x30x17, .f32⟩
  | .hbm, ⟨49, _⟩ => ⟨S_, .f32⟩
  | .hbm, ⟨50, _⟩ => ⟨S16x30, .f32⟩
  | .hbm, ⟨51, _⟩ => ⟨S16x30, .f32⟩
  | .hbm, ⟨52, _⟩ => ⟨S16x30, .f32⟩
  | .hbm, ⟨53, _⟩ => ⟨S_, .f32⟩
  | .hbm, ⟨54, _⟩ => ⟨S16, .f32⟩
  | .hbm, ⟨55, _⟩ => ⟨S_, .f32⟩
  | .hbm, ⟨56, _⟩ => ⟨S_, .f32⟩
  | .hbm, ⟨57, _⟩ => ⟨S30, .f32⟩
  | .hbm, ⟨58, _⟩ => ⟨S16x30, .f32⟩
  | .hbm, ⟨59, _⟩ => ⟨S16x30, .f32⟩
  | .hbm, ⟨60, _⟩ => ⟨S_, .f32⟩
  | .hbm, ⟨61, _⟩ => ⟨S16, .f32⟩
  | .hbm, ⟨62, _⟩ => ⟨S_, .f32⟩
  | .hbm, ⟨63, _⟩ => ⟨S16, .f32⟩
  | .hbm, ⟨64, _⟩ => ⟨S16, .f32⟩
  | .hbm, ⟨65, _⟩ => ⟨S16, .f32⟩
  | .hbm, ⟨66, _⟩ => ⟨S16x30x1, .f32⟩
  | .hbm, ⟨67, _⟩ => ⟨S16x1x30, .f32⟩
  | .hbm, ⟨68, _⟩ => ⟨S16x30x30, .f32⟩
  | .hbm, ⟨69, _⟩ => ⟨S16x30x30, .f32⟩
  | .hbm, ⟨70, _⟩ => ⟨S16x30x30, .f32⟩
  | .hbm, ⟨71, _⟩ => ⟨S16x30x1, .i1⟩
  | .hbm, ⟨72, _⟩ => ⟨S16x1x30, .i1⟩
  | .hbm, ⟨73, _⟩ => ⟨S16x30x30, .i1⟩
  | .hbm, ⟨74, _⟩ => ⟨S16x30x30, .i1⟩
  | .hbm, ⟨75, _⟩ => ⟨S16x30x30, .i1⟩
  | .hbm, ⟨76, _⟩ => ⟨S16x30x30, .f32⟩
  | .hbm, ⟨77, _⟩ => ⟨S16x30x30, .f32⟩
  | .hbm, ⟨78, _⟩ => ⟨S16x30x30, .f32⟩
  | .hbm, ⟨79, _⟩ => ⟨S_, .f32⟩
  | .hbm, ⟨80, _⟩ => ⟨S_, .f32⟩
  | .hbm, ⟨81, _⟩ => ⟨S30x30, .f32⟩
  | .hbm, ⟨82, _⟩ => ⟨S16x30x30, .f32⟩
  | .hbm, ⟨83, _⟩ => ⟨S16x30x30, .f32⟩
  | .hbm, ⟨84, _⟩ => ⟨S_, .f32⟩
  | .hbm, ⟨85, _⟩ => ⟨S16, .f32⟩
  | .hbm, ⟨86, _⟩ => ⟨S_, .f32⟩
  | .hbm, ⟨87, _⟩ => ⟨S16, .f32⟩
  | .hbm, ⟨88, _⟩ => ⟨S16, .f32⟩
  | .hbm, ⟨89, _⟩ => ⟨S16, .f32⟩
  | .hbm, ⟨90, _⟩ => ⟨S_, .f32⟩
  | .hbm, ⟨91, _⟩ => ⟨S16, .f32⟩
  | .hbm, ⟨92, _⟩ => ⟨S16, .f32⟩
  | .hbm, ⟨93, _⟩ => ⟨S_, .f32⟩
  | .hbm, ⟨94, _⟩ => ⟨S16, .f32⟩
  | .hbm, ⟨95, _⟩ => ⟨S16, .i1⟩
  | .hbm, ⟨96, _⟩ => ⟨S16, .f32⟩
  | .hbm, ⟨97, _⟩ => ⟨S16, .f32⟩
  | .hbm, ⟨98, _⟩ => ⟨S_, .f32⟩
  | .hbm, ⟨99, _⟩ => ⟨S16, .f32⟩
  | .hbm, ⟨100, _⟩ => ⟨S16, .f32⟩
  | .hbm, ⟨101, _⟩ => ⟨S_, .f32⟩
  | .hbm, ⟨102, _⟩ => ⟨S_, .f32⟩
  | .hbm, ⟨103, _⟩ => ⟨S16, .f32⟩
  | .hbm, ⟨104, _⟩ => ⟨S16, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | _, _ => ⟨S16x17x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_c_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_cst_10 : Ref sig .tc := ⟨.hbm, 55, rfl⟩
abbrev main_call0_v0 : Ref sig .tc := ⟨.hbm, 56, rfl⟩
abbrev main_call0_v1 : Ref sig .tc := ⟨.hbm, 57, rfl⟩
abbrev main_call0_v2 : Ref sig .tc := ⟨.hbm, 58, rfl⟩
abbrev main_v38 : Ref sig .tc := ⟨.hbm, 59, rfl⟩
abbrev main_cst_11 : Ref sig .tc := ⟨.hbm, 60, rfl⟩
abbrev main_v39 : Ref sig .tc := ⟨.hbm, 61, rfl⟩
abbrev main_cst_12 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_13 : Ref sig .tc := ⟨.hbm, 79, rfl⟩
abbrev main_call1_v0 : Ref sig .tc := ⟨.hbm, 80, rfl⟩
abbrev main_call1_v1 : Ref sig .tc := ⟨.hbm, 81, rfl⟩
abbrev main_call1_v2 : Ref sig .tc := ⟨.hbm, 82, rfl⟩
abbrev main_v56 : Ref sig .tc := ⟨.hbm, 83, rfl⟩
abbrev main_cst_14 : Ref sig .tc := ⟨.hbm, 84, rfl⟩
abbrev main_v57 : Ref sig .tc := ⟨.hbm, 85, rfl⟩
abbrev main_cst_15 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_16 : Ref sig .tc := ⟨.hbm, 90, rfl⟩
abbrev main_v61 : Ref sig .tc := ⟨.hbm, 91, rfl⟩
abbrev main_v62 : Ref sig .tc := ⟨.hbm, 92, rfl⟩
abbrev main_cst_17 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_18 : Ref sig .tc := ⟨.hbm, 98, rfl⟩
abbrev main_v67 : Ref sig .tc := ⟨.hbm, 99, rfl⟩
abbrev main_v68 : Ref sig .tc := ⟨.hbm, 100, rfl⟩
abbrev main_cst_19 : Ref sig .tc := ⟨.hbm, 101, rfl⟩
abbrev main_call2_v0 : Ref sig .tc := ⟨.hbm, 102, rfl⟩
abbrev main_call2_v1 : Ref sig .tc := ⟨.hbm, 103, rfl⟩
abbrev main_v69 : Ref sig .tc := ⟨.hbm, 104, rfl⟩
abbrev main_cst_20 : Ref sig .tc := ⟨.hbm, 105, rfl⟩
abbrev main_v70 : Ref sig .tc := ⟨.hbm, 106, rfl⟩
abbrev main_cst_21 : Ref sig .tc := ⟨.hbm, 107, rfl⟩
abbrev main_v71 : Ref sig .tc := ⟨.hbm, 108, rfl⟩
abbrev main_cst_22 : Ref sig .tc := ⟨.hbm, 109, rfl⟩
abbrev main_v72 : Ref sig .tc := ⟨.hbm, 110, rfl⟩
abbrev main_cst_23 : Ref sig .tc := ⟨.hbm, 111, rfl⟩
abbrev main_v73 : Ref sig .tc := ⟨.hbm, 112, rfl⟩
abbrev main_cst_24 : Ref sig .tc := ⟨.hbm, 113, rfl⟩
abbrev main_v74 : Ref sig .tc := ⟨.hbm, 114, rfl⟩
abbrev main_cst_25 : Ref sig .tc := ⟨.hbm, 115, rfl⟩
abbrev main_v75 : Ref sig .tc := ⟨.hbm, 116, rfl⟩

abbrev nD : Nat := 1
abbrev τ : Topo := Topo.v7x

variable {F : FTy → Type} [FloatOps F]

class Facts₀ : Prop where
  reducesTo_S16x17x256x256_S_d0_1_2_3 : S16x17x256x256.ReducesTo [0, 1, 2, 3] S_
  h_S_ : 0 < S_.numel
  shapeCasts_S16x17x256x256_S16x1114112 : S16x17x256x256.ShapeCasts S16x1114112
  slices_S16x30x17x2_S16x30x17x1_0_0_0_0 : S16x30x17x2.Slices ![0, 0, 0, 0] S16x30x17x1
  shapeCasts_S16x30x17x1_S16x30x17 : S16x30x17x1.ShapeCasts S16x30x17
  slices_S16x30x17x2_S16x30x17x1_0_0_0_1 : S16x30x17x2.Slices ![0, 0, 0, 1] S16x30x17x1
  bcast_S_S16x30x17 : S_.BroadcastsInDim S16x30x17 (![] : Fin 0 → Fin S16x30x17.rank)
  bcast_S16x30x17_S16x30x17x1_0_1_2 : S16x30x17.BroadcastsInDim S16x30x17x1 (![0, 1, 2] : Fin 3 → Fin S16x30x17x1.rank)
  reducesTo_S16x30x17_S16x30_d2 : S16x30x17.ReducesTo [2] S16x30
  bcast_S_S16x30 : S_.BroadcastsInDim S16x30 (![] : Fin 0 → Fin S16x30.rank)
  bcast_S16x30_S16x30x1_0_1 : S16x30.BroadcastsInDim S16x30x1 (![0, 1] : Fin 2 → Fin S16x30x1.rank)
  bcast_S16x30x1_S16x30x17_0_1_2 : S16x30x1.BroadcastsInDim S16x30x17 (![0, 1, 2] : Fin 3 → Fin S16x30x17.rank)
  reducesTo_S16x30_S16_d1 : S16x30.ReducesTo [1] S16
  bcast_S_S30 : S_.BroadcastsInDim S30 (![] : Fin 0 → Fin S30.rank)
  bcast_S30_S16x30_1 : S30.BroadcastsInDim S16x30 (![1] : Fin 1 → Fin S16x30.rank)
  bcast_S_S16 : S_.BroadcastsInDim S16 (![] : Fin 0 → Fin S16.rank)
  bcast_S16x30_S16x1x30_0_2 : S16x30.BroadcastsInDim S16x1x30 (![0, 2] : Fin 2 → Fin S16x1x30.rank)
  bcast_S16x30x1_S16x30x30_0_1_2 : S16x30x1.BroadcastsInDim S16x30x30 (![0, 1, 2] : Fin 3 → Fin S16x30x30.rank)
  bcast_S16x1x30_S16x30x30_0_1_2 : S16x1x30.BroadcastsInDim S16x30x30 (![0, 1, 2] : Fin 3 → Fin S16x30x30.rank)
  bcast_S_S30x30 : S_.BroadcastsInDim S30x30 (![] : Fin 0 → Fin S30x30.rank)
  bcast_S30x30_S16x30x30_1_2 : S30x30.BroadcastsInDim S16x30x30 (![1, 2] : Fin 2 → Fin S16x30x30.rank)
  reducesTo_S16x30x30_S16_d1_2 : S16x30x30.ReducesTo [1, 2] S16
  reducesTo_S16_S_d0 : S16.ReducesTo [0] S_
  gather_S16x1114112_S16x30x17x1_S16x30x17_n_1_0_0_1_3_11_wf : GatherDims.WF S16x1114112 S16x30x17x1 S16x30x17 [] [1] [0] [1] [0] 3 ![1, 1]

variable [Facts₀]

def gather_S16x1114112_S16x30x17x1_S16x30x17_n_1_0_0_1_3_11 : GatherDims S16x1114112 S16x30x17x1 S16x30x17 where
  offsetDims := []
  collapsedSliceDims := [1]
  operandBatchingDims := [0]
  startIndicesBatchingDims := [0]
  startIndexMap := [1]
  indexVectorDim := 3
  sliceSizes := ![1, 1]
  wf := gather_S16x1114112_S16x30x17x1_S16x30x17_n_1_0_0_1_3_11_wf

class Facts : Prop extends Facts₀ where

variable [Facts]
-- ==== Proof.BitsKit.lean ====
/-
  The heat-map loss kernel runs once per grid point t = 0 … 16 on the block of sixteen 256×256 planes
  [16t, 16t + 16) of each of its three reshaped operands (prediction, target, mask). A 1×1 scratch cell is the
  accumulator: it is cleared at t = 0, the block's masked squared error is added to it at every point, and at
  t = 16 it is copied into the 1×1 output window, which is written back only there.
  This module fixes what the three cases of the body (t = 0; 0 < t < 16; t = 16) and the frame are stated over:
  the buffers' contents when the region is entered (after the three reshapes), each window's block, the two branch
  conditions in closed form, where the output window is idle, and the memrefs the body is called with.
-/
import proofs.«168725_j1597727834375_1_alg».proof.Proof.Gen.Kernel.Launch
import proofs.«168725_j1597727834375_1_alg».proof.Proof.Gen.Kernel.Skeleton
import proofs.«168725_j1597727834375_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- The host operations that follow the region, stretch by stretch. -/
abbrev tailOps : List (List (HloOp τ sig (Elt F))) :=
  [hostOps1, hostOps1_1, hostOps1_2, hostOps1_3, hostOps1_4, hostOps1_5, hostOps1_6]

/-- Core `c`'s buffer contents when the region is entered: the launch contents after the three reshapes. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- Window `w`'s block at point `t`: planes [16t, 16t + 16) of its reshaped array (the whole 1×1 array for window 3). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block when the body is called, for any proof data whose array is the
    region-entry one and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The two branches of the body, decided over the grid -/

/-- "This is the first point": the condition under which the accumulator is cleared. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

/-- "This is the last point": the condition under which the accumulator is copied to the output. -/
abbrev cond0_1 (i : grid0.Coords) : Prop := k0_cond2 i = 1#1
theorem hcond0_1 : ∀ t : Fin cfg0.N, cond0_1 (grid0.coords t) ↔ t.val = 16 :=
  (by decide +kernel : ∀ t : Fin grid0.N, cond0_1 (grid0.coords t) ↔ t.val = 16)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last point nothing is stored into the output window and its block is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last point the output window is live. -/
theorem liveAt0_3 : ∀ t : Fin cfg0.N, cond0_1 (grid0.coords t) → cfg0.idle 3 (grid0.coords t) = false := by decide +kernel

/-! ## The memrefs the body is called with -/

/-- The output window's staging buffer as a view: its contents are stated through it. -/
abbrev VO0_3 : View sig .tc .vmem S1x1 .f32 := (Memref.whole cc0_stg3_0 : Memref sig .tc .vmem S1x1 .f32).view
abbrev ms0_0 (t : Fin cfg0.N) : Memref sig .tc .vmem S16x256x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x256x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x256x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)
/-- The accumulator: the kernel's one scratch cell. -/
abbrev scM0_0 : Memref sig .tc .vmem S1x1 .f32 := Memref.whole cc0_scratch0
abbrev VS0_0 : View sig .tc .vmem S1x1 .f32 := scM0_0.view

/-- What the launch hands the region besides the windows: the accumulator at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Fr

end
-- ==== Proof.BitsRunA.lean ====
/-
  The body of the heat-map loss kernel at the first grid point (the accumulator is cleared, then the block's sum is added; the output window is not touched), run once on whole staging memrefs.
  What each buffer the body stores into ends with is found by the run itself, as the list of the pieces stored
  (last first); the inputs are handed back as they were found.
-/
import proofs.«168725_j1597727834375_1_alg».proof.Proof.BitsKit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At the first point: whatever the accumulator held, it ends with the pieces `LS0`; the output window's buffer `arg4`
    is handed back at the contents `xi3` it was found with. -/
noncomputable def kernelRun0_A (c : Dev nD) (i : grid0.Coords) (arg1 : Memref sig .tc .vmem S16x256x256 .f32) (harg1 : arg1.IsWhole) (arg2 : Memref sig .tc .vmem S16x256x256 .f32) (harg2 : arg2.IsWhole) (arg3 : Memref sig .tc .vmem S16x256x256 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 x1 x2 : Vec F S16x256x256 .f32) :
    Σ' (L3 : List (View.Piece (Elt F) S1x1 .f32)), { LS0 : List (View.Piece (Elt F) S1x1 .f32) //
      ∀ (xi3 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc0_heatmap_loss_kernel i arg1 harg1 arg2 harg2 arg3 harg3 arg4 harg4 arg5 harg5) K } := by
  refine ⟨[], ?_, fun xi3 E K => ?run⟩
  case run =>
    simp only [cc0_heatmap_loss_kernel_eq_skeleton]; unfold cc0_heatmap_loss_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

end Cert.Kernel.Fr

end
-- ==== Proof.BitsRunB.lean ====
/-
  The body of the heat-map loss kernel at a grid point that is neither the first nor the last (the block's sum is added to the accumulator; the output window is not touched), run once on whole staging memrefs.
  What each buffer the body stores into ends with is found by the run itself, as the list of the pieces stored
  (last first); the inputs are handed back as they were found.
-/
import proofs.«168725_j1597727834375_1_alg».proof.Proof.BitsKit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- In the middle: the accumulator is found at `xs0`, what the point before left, and ends with the pieces `LS0`; the
    output window's buffer `arg4` is handed back at the contents `xi3` it was found with. -/
noncomputable def kernelRun0_B (c : Dev nD) (i : grid0.Coords) (arg1 : Memref sig .tc .vmem S16x256x256 .f32) (harg1 : arg1.IsWhole) (arg2 : Memref sig .tc .vmem S16x256x256 .f32) (harg2 : arg2.IsWhole) (arg3 : Memref sig .tc .vmem S16x256x256 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 x1 x2 : Vec F S16x256x256 .f32) (xs0 : Vec F S1x1 .f32) :
    Σ' (L3 : List (View.Piece (Elt F) S1x1 .f32)), { LS0 : List (View.Piece (Elt F) S1x1 .f32) //
      ∀ (xi3 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xs0
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc0_heatmap_loss_kernel i arg1 harg1 arg2 harg2 arg3 harg3 arg4 harg4 arg5 harg5) K } := by
  refine ⟨[], ?_, fun xi3 E K => ?run⟩
  case run =>
    simp only [cc0_heatmap_loss_kernel_eq_skeleton]; unfold cc0_heatmap_loss_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

end Cert.Kernel.Fr

end
-- ==== Proof.BitsRunC.lean ====
/-
  The body of the heat-map loss kernel at the last grid point (the block's sum is added to the accumulator, which is then copied into the output window), run once on whole staging memrefs.
  What each buffer the body stores into ends with is found by the run itself, as the list of the pieces stored
  (last first); the inputs are handed back as they were found.
-/
import proofs.«168725_j1597727834375_1_alg».proof.Proof.BitsKit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At the last point: the accumulator is found at `xs0` and ends with the pieces `LS0`; the output window's buffer
    `arg4`, whatever it held, ends with the pieces `L3`. -/
noncomputable def kernelRun0_C (c : Dev nD) (i : grid0.Coords) (arg1 : Memref sig .tc .vmem S16x256x256 .f32) (harg1 : arg1.IsWhole) (arg2 : Memref sig .tc .vmem S16x256x256 .f32) (harg2 : arg2.IsWhole) (arg3 : Memref sig .tc .vmem S16x256x256 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 x1 x2 : Vec F S16x256x256 .f32) (xs0 : Vec F S1x1 .f32) :
    Σ' (L3 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc0_heatmap_loss_kernel i arg1 harg1 arg2 harg2 arg3 harg3 arg4 harg4 arg5 harg5) K } := by
  refine ⟨?_, ?_, fun E K => ?run⟩
  case run =>
    simp only [cc0_heatmap_loss_kernel_eq_skeleton]; unfold cc0_heatmap_loss_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg1.eq_unread hf0; obtain rfl := harg2.eq_unread hf1; obtain rfl := harg3.eq_unread hf2; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

end Cert.Kernel.Fr

end
-- ==== Proof.BitsFrame.lean ====
/-
  The accumulation, point by point, and the body's obligation to the pipeline.
  After grid point n the accumulator holds what point n's case leaves in it, computed from the point's three
  input blocks and (after the first point) from what point n − 1 left; the output window's staging buffer holds
  the accumulator's copy after the last point and is not consulted before. The region invariant carries the
  accumulator at exactly those contents from one point to the next, which is what lets the body find it there.
-/
import proofs.«168725_j1597727834375_1_alg».proof.Proof.BitsRunA
import proofs.«168725_j1597727834375_1_alg».proof.Proof.BitsRunB
import proofs.«168725_j1597727834375_1_alg».proof.Proof.BitsRunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What case A leaves in the output window's staging buffer: its pieces read back (none: a placeholder nothing consults, the window being idle and not written back at these points). -/
def out0_A_3 (c : Dev nD) (i : grid0.Coords) (arg1 : Memref sig .tc .vmem S16x256x256 .f32) (harg1 : arg1.IsWhole) (arg2 : Memref sig .tc .vmem S16x256x256 .f32) (harg2 : arg2.IsWhole) (arg3 : Memref sig .tc .vmem S16x256x256 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 x1 x2 : Vec F S16x256x256 .f32) : Vec F S1x1 .f32 :=
  VO0_3.read (Elt F) (VO0_3.writes (Elt F) VO0_3.junk (kernelRun0_A c i arg1 harg1 arg2 harg2 arg3 harg3 arg4 harg4 arg5 harg5 hc0 hc1 x0 x1 x2).1)

/-- Case A's stores into the accumulator cover its one cell. -/
theorem scover0_A_0 (c : Dev nD) (i : grid0.Coords) (arg1 : Memref sig .tc .vmem S16x256x256 .f32) (harg1 : arg1.IsWhole) (arg2 : Memref sig .tc .vmem S16x256x256 .f32) (harg2 : arg2.IsWhole) (arg3 : Memref sig .tc .vmem S16x256x256 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 x1 x2 : Vec F S16x256x256 .f32) (y : S1x1.Idx) :
    ∃ pc ∈ (kernelRun0_A c i arg1 harg1 arg2 harg2 arg3 harg3 arg4 harg4 arg5 harg5 hc0 hc1 x0 x1 x2).2.1, y ∈ pc.1.set :=
  View.cover_of_tiledL (kernelRun0_A c i arg1 harg1 arg2 harg2 arg3 harg3 arg4 harg4 arg5 harg5 hc0 hc1 x0 x1 x2).2.1 S1x1.size (by sl_kernel_rfl) y

/-- What case A leaves in the accumulator. -/
def sout0_A_0 (c : Dev nD) (i : grid0.Coords) (arg1 : Memref sig .tc .vmem S16x256x256 .f32) (harg1 : arg1.IsWhole) (arg2 : Memref sig .tc .vmem S16x256x256 .f32) (harg2 : arg2.IsWhole) (arg3 : Memref sig .tc .vmem S16x256x256 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 x1 x2 : Vec F S16x256x256 .f32) : Vec F S1x1 .f32 :=
  VS0_0.read (Elt F) (VS0_0.writes (Elt F) VS0_0.junk (kernelRun0_A c i arg1 harg1 arg2 harg2 arg3 harg3 arg4 harg4 arg5 harg5 hc0 hc1 x0 x1 x2).2.1)

/-- What case B leaves in the output window's staging buffer: its pieces read back (none: a placeholder nothing consults, the window being idle and not written back at these points). -/
def out0_B_3 (c : Dev nD) (i : grid0.Coords) (arg1 : Memref sig .tc .vmem S16x256x256 .f32) (harg1 : arg1.IsWhole) (arg2 : Memref sig .tc .vmem S16x256x256 .f32) (harg2 : arg2.IsWhole) (arg3 : Memref sig .tc .vmem S16x256x256 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 x1 x2 : Vec F S16x256x256 .f32) (xs0 : Vec F S1x1 .f32) : Vec F S1x1 .f32 :=
  VO0_3.read (Elt F) (VO0_3.writes (Elt F) VO0_3.junk (kernelRun0_B c i arg1 harg1 arg2 harg2 arg3 harg3 arg4 harg4 arg5 harg5 hc0 hc1 x0 x1 x2 xs0).1)

/-- Case B's stores into the accumulator cover its one cell. -/
theorem scover0_B_0 (c : Dev nD) (i : grid0.Coords) (arg1 : Memref sig .tc .vmem S16x256x256 .f32) (harg1 : arg1.IsWhole) (arg2 : Memref sig .tc .vmem S16x256x256 .f32) (harg2 : arg2.IsWhole) (arg3 : Memref sig .tc .vmem S16x256x256 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 x1 x2 : Vec F S16x256x256 .f32) (xs0 : Vec F S1x1 .f32) (y : S1x1.Idx) :
    ∃ pc ∈ (kernelRun0_B c i arg1 harg1 arg2 harg2 arg3 harg3 arg4 harg4 arg5 harg5 hc0 hc1 x0 x1 x2 xs0).2.1, y ∈ pc.1.set :=
  View.cover_of_tiledL (kernelRun0_B c i arg1 harg1 arg2 harg2 arg3 harg3 arg4 harg4 arg5 harg5 hc0 hc1 x0 x1 x2 xs0).2.1 S1x1.size (by sl_kernel_rfl) y

/-- What case B leaves in the accumulator. -/
def sout0_B_0 (c : Dev nD) (i : grid0.Coords) (arg1 : Memref sig .tc .vmem S16x256x256 .f32) (harg1 : arg1.IsWhole) (arg2 : Memref sig .tc .vmem S16x256x256 .f32) (harg2 : arg2.IsWhole) (arg3 : Memref sig .tc .vmem S16x256x256 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 x1 x2 : Vec F S16x256x256 .f32) (xs0 : Vec F S1x1 .f32) : Vec F S1x1 .f32 :=
  VS0_0.read (Elt F) (VS0_0.writes (Elt F) VS0_0.junk (kernelRun0_B c i arg1 harg1 arg2 harg2 arg3 harg3 arg4 harg4 arg5 harg5 hc0 hc1 x0 x1 x2 xs0).2.1)

/-- At the last point the one store into the output window covers its 1×1 block. -/
theorem cover0_C_3 (c : Dev nD) (i : grid0.Coords) (arg1 : Memref sig .tc .vmem S16x256x256 .f32) (harg1 : arg1.IsWhole) (arg2 : Memref sig .tc .vmem S16x256x256 .f32) (harg2 : arg2.IsWhole) (arg3 : Memref sig .tc .vmem S16x256x256 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 x1 x2 : Vec F S16x256x256 .f32) (xs0 : Vec F S1x1 .f32) (y : S1x1.Idx) :
    ∃ pc ∈ (kernelRun0_C c i arg1 harg1 arg2 harg2 arg3 harg3 arg4 harg4 arg5 harg5 hc0 hc1 x0 x1 x2 xs0).1, y ∈ pc.1.set :=
  View.cover_of_tiledL (kernelRun0_C c i arg1 harg1 arg2 harg2 arg3 harg3 arg4 harg4 arg5 harg5 hc0 hc1 x0 x1 x2 xs0).1 S1x1.size (by sl_kernel_rfl) y

/-- What case C leaves in the output window's staging buffer: its pieces read back. -/
def out0_C_3 (c : Dev nD) (i : grid0.Coords) (arg1 : Memref sig .tc .vmem S16x256x256 .f32) (harg1 : arg1.IsWhole) (arg2 : Memref sig .tc .vmem S16x256x256 .f32) (harg2 : arg2.IsWhole) (arg3 : Memref sig .tc .vmem S16x256x256 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 x1 x2 : Vec F S16x256x256 .f32) (xs0 : Vec F S1x1 .f32) : Vec F S1x1 .f32 :=
  VO0_3.read (Elt F) (VO0_3.writes (Elt F) VO0_3.junk (kernelRun0_C c i arg1 harg1 arg2 harg2 arg3 harg3 arg4 harg4 arg5 harg5 hc0 hc1 x0 x1 x2 xs0).1)

/-- Case C's stores into the accumulator cover its one cell. -/
theorem scover0_C_0 (c : Dev nD) (i : grid0.Coords) (arg1 : Memref sig .tc .vmem S16x256x256 .f32) (harg1 : arg1.IsWhole) (arg2 : Memref sig .tc .vmem S16x256x256 .f32) (harg2 : arg2.IsWhole) (arg3 : Memref sig .tc .vmem S16x256x256 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 x1 x2 : Vec F S16x256x256 .f32) (xs0 : Vec F S1x1 .f32) (y : S1x1.Idx) :
    ∃ pc ∈ (kernelRun0_C c i arg1 harg1 arg2 harg2 arg3 harg3 arg4 harg4 arg5 harg5 hc0 hc1 x0 x1 x2 xs0).2.1, y ∈ pc.1.set :=
  View.cover_of_tiledL (kernelRun0_C c i arg1 harg1 arg2 harg2 arg3 harg3 arg4 harg4 arg5 harg5 hc0 hc1 x0 x1 x2 xs0).2.1 S1x1.size (by sl_kernel_rfl) y

/-- What case C leaves in the accumulator. -/
def sout0_C_0 (c : Dev nD) (i : grid0.Coords) (arg1 : Memref sig .tc .vmem S16x256x256 .f32) (harg1 : arg1.IsWhole) (arg2 : Memref sig .tc .vmem S16x256x256 .f32) (harg2 : arg2.IsWhole) (arg3 : Memref sig .tc .vmem S16x256x256 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 x1 x2 : Vec F S16x256x256 .f32) (xs0 : Vec F S1x1 .f32) : Vec F S1x1 .f32 :=
  VS0_0.read (Elt F) (VS0_0.writes (Elt F) VS0_0.junk (kernelRun0_C c i arg1 harg1 arg2 harg2 arg3 harg3 arg4 harg4 arg5 harg5 hc0 hc1 x0 x1 x2 xs0).2.1)

/-! ## What the output window and the accumulator hold after each point -/

/-- After the body at position `n`: (the output window's staging buffer, the accumulator). Point 0 is case A; point 16
    is case C; the points between are case B; B and C read the accumulator as point `n − 1` left it. -/
def outsAt0 (c : Dev nD) : (n : ℕ) → n < cfg0.N → Vec F S1x1 .f32 × Vec F S1x1 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr rfl) (fun h => (show ¬(0 : ℕ) = 16 by decide) ((hcond0_1 ⟨0, hn⟩).mp h)) (iblk m c 0 ⟨0, hn⟩) (iblk m c 1 ⟨0, hn⟩) (iblk m c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr rfl) (fun h => (show ¬(0 : ℕ) = 16 by decide) ((hcond0_1 ⟨0, hn⟩).mp h)) (iblk m c 0 ⟨0, hn⟩) (iblk m c 1 ⟨0, hn⟩) (iblk m c 2 ⟨0, hn⟩))
  | n + 1, hn =>
    if h1 : n + 1 = 16 then
      (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => (Nat.succ_ne_zero n ((hcond0_0 ⟨n + 1, hn⟩).mp h)).elim) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => (Nat.succ_ne_zero n ((hcond0_0 ⟨n + 1, hn⟩).mp h)).elim) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2)
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => (Nat.succ_ne_zero n ((hcond0_0 ⟨n + 1, hn⟩).mp h)).elim) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => (Nat.succ_ne_zero n ((hcond0_0 ⟨n + 1, hn⟩).mp h)).elim) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2)

/-- `outsAt0` at the first point. -/
theorem outsAt0_A (c : Dev nD) (t : Fin cfg0.N) (h0 : t.val = 0) (h1 : ¬t.val = 16) :
    outsAt0 m c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)) := by
  obtain ⟨n, hn⟩ := t
  cases n with
  | zero => exact rfl
  | succ n => exact absurd h0 (Nat.succ_ne_zero n)

/-- `outsAt0` at a point strictly between the first and the last, over what the point before left. -/
theorem outsAt0_B (c : Dev nD) (t : Fin cfg0.N) (h0 : ¬t.val = 0) (h1 : ¬t.val = 16) :
    outsAt0 m c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2) := by
  obtain ⟨n, hn⟩ := t
  cases n with
  | zero => exact absurd rfl h0
  | succ n => exact (dif_neg h1).trans rfl

/-- `outsAt0` at the last point, over what the point before left. -/
theorem outsAt0_C (c : Dev nD) (t : Fin cfg0.N) (h0 : ¬t.val = 0) (h1 : t.val = 16) :
    outsAt0 m c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) := by
  obtain ⟨n, hn⟩ := t
  cases n with
  | zero => exact absurd rfl h0
  | succ n => exact (dif_pos h1).trans rfl

/-- The region invariant before position `n`: before the first point, what the launch hands over (the accumulator at
    anything); afterwards the accumulator at what the point before left in it, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data of the pipeline on core `c`: the arrays as the region finds them; after the body at point `t` each
    input's buffer at its block and the output's at `outsAt0`'s first component; the invariant `PhiS`; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' memrefs hold their blocks; the point's position says which case it is in; the
    invariant hands the body the accumulator at what the point before left (at anything at the first point) and takes
    it back at this point's contents; away from the last point the output window's buffer goes back untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 17 := lt_of_lt_of_eq t.isLt (show cfg0.N = 17 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  by_cases h0 : t.val = 0
  · have h1 : ¬t.val = 16 := by omega
    rw [Dat.leavesExact_idle (dats m 0 c) 3 t (idleAt0_3 t (fun h => h1 ((hcond0_1 t).mp h))) (noFlush0_3 t (fun h => h1 ((hcond0_1 t).mp h)))]
    rw [outsAt0_A m c t h0 h1]
    unfold sout0_A_0; (try dsimp only)
    rw [PhiS_castSucc m c t, PhiS_zero m c _ _ h0, PhiA0_eq]
    iintro ⟨⟨HS0, Hg⟩, Ho, ⟨%d0, H0⟩, ⟨%d1, H1⟩, ⟨%d2, H2⟩, ⟨%d3, H3⟩⟩
    iapply ((kernelRun0_A c (grid0.coords t) _ _ _ _ _ _ _ _ _ _ ((hcond0_0 t).mpr h0) (fun h => h1 ((hcond0_1 t).mp h)) (iblk m c 0 t) (iblk m c 1 t) (iblk m c 2 t)).2.2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 Hg]
    · isplitl [HS0]
      · unfold owns; iexists _; isplitr
        swap; · iexact HS0
        ipureintro; exact View.read_writes_of_cover _ _ _ _ _ (scover0_A_0 c _ _ _ _ _ _ _ _ _ _ _ _ _ _ _ _)
      iexact Hg
    isplitl [Ho]; · iexact Ho
    isplitl [H0]; · iexact H0
    isplitl [H1]; · iexact H1
    isplitl [H2]; · iexact H2
    iexists _; iexact H3
  · by_cases h1 : t.val = 16
    · rw [show (dats m 0 c).leavesExact 3 t = owns (c : Thread nD τ) (ms0_3 t) fullShare ((dats m 0 c).after 3 t) from by
        unfold Dat.leavesExact; rw [liveAt0_3 t ((hcond0_1 t).mpr h1)], after0_3]
      rw [outsAt0_C m c t h0 h1]
      unfold out0_C_3 sout0_C_0; (try dsimp only)
      rw [PhiS_castSucc m c t, PhiS_pos m c _ _ h0]
      iintro ⟨⟨HS0, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk m c 0 t) (iblk m c 1 t) (iblk m c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _)
    · rw [Dat.leavesExact_idle (dats m 0 c) 3 t (idleAt0_3 t (fun h => h1 ((hcond0_1 t).mp h))) (noFlush0_3 t (fun h => h1 ((hcond0_1 t).mp h)))]
      rw [outsAt0_B m c t h0 h1]
      unfold sout0_B_0; (try dsimp only)
      rw [PhiS_castSucc m c t, PhiS_pos m c _ _ h0]
      iintro ⟨⟨HS0, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk m c 0 t) (iblk m c 1 t) (iblk m c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives back what the launch handed over: the accumulator's contents are forgotten. -/
theorem hout (c : Dev nD) : (dats m 0 c).Φ (Fin.last cfg0.N) ⊢ Pipeline.ΦA spec0 c := by
  have ht : (Fin.last cfg0.N).val ≠ 0 := by rw [Fin.val_last]; have : cfg0.N = 17 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨HS0, Hg⟩
  isplitl [HS0]
  · iexists _; iexact HS0
  iexact Hg

end Cert.Kernel.Fr

end
-- ==== Proof.BitsTail.lean ====
/-
  @main around the region: three reshapes, the region, and 108 host operations after it (the loss's scaling and the
  whole tag-loss chain, which reads only the tag map and the joint table). None of the later operations writes one of
  the pipeline's four arrays or one of @main's five arguments: each writes only its own result buffer. So the arguments
  end as launched, and what the later operations compute is their composition over the region's exit contents.
-/
import proofs.«168725_j1597727834375_1_alg».proof.Proof.BitsKit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The operations allocate nothing -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

/-! ## @main reduces to the region continued by the later operations -/

set_option maxHeartbeats 4000000 in
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4, StableHlo.seq hostOps1_5, StableHlo.seq hostOps1_6]) :=
  Pipeline.hmain_around cfgs 0 defs₀ 𝒱₀ m main [hostOps0] tailOps (by simp only [List.Forall]; exact hostOps0_sub)
    (by simp only [List.Forall]; exact hostOps0_fresh) main_chain

/-! ## What the later operations touch -/

/-- A property of every later stretch, from the seven stretches one by one. -/
theorem tail_cases {P : List (HloOp τ sig (Elt F)) → Prop} (ops : List (HloOp τ sig (Elt F))) (hops : ops ∈ (tailOps : List (List (HloOp τ sig (Elt F)))))
    (h0 : P hostOps1) (h1 : P hostOps1_1) (h2 : P hostOps1_2) (h3 : P hostOps1_3) (h4 : P hostOps1_4) (h5 : P hostOps1_5) (h6 : P hostOps1_6) : P ops := by
  simp only [List.mem_cons, List.mem_nil_iff, or_false] at hops
  rcases hops with rfl | rfl | rfl | rfl | rfl | rfl | rfl
  exacts [h0, h1, h2, h3, h4, h5, h6]

/-- They touch the pipeline's arrays and the bypassing buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops
  refine tail_cases (P := fun ops => ∀ op ∈ ops, op.bufs ⊆ _) ops hops ?_ ?_ ?_ ?_ ?_ ?_ ?_
  · exact fun op hop => Pipeline.sub_ucRefs op ((List.forall_iff_forall_mem.mp hostOps1_sub) op hop)
  · exact fun op hop => Pipeline.sub_ucRefs op ((List.forall_iff_forall_mem.mp hostOps1_1_sub) op hop)
  · exact fun op hop => Pipeline.sub_ucRefs op ((List.forall_iff_forall_mem.mp hostOps1_2_sub) op hop)
  · exact fun op hop => Pipeline.sub_ucRefs op ((List.forall_iff_forall_mem.mp hostOps1_3_sub) op hop)
  · exact fun op hop => Pipeline.sub_ucRefs op ((List.forall_iff_forall_mem.mp hostOps1_4_sub) op hop)
  · exact fun op hop => Pipeline.sub_ucRefs op ((List.forall_iff_forall_mem.mp hostOps1_5_sub) op hop)
  · exact fun op hop => Pipeline.sub_ucRefs op ((List.forall_iff_forall_mem.mp hostOps1_6_sub) op hop)

/-- They allocate nothing. -/
theorem sfx_fresh : ∀ ops ∈ (tailOps : List (List (HloOp τ sig (Elt F)))), ∀ op ∈ ops, op.fresh = ∅ := by
  intro ops hops
  refine tail_cases (P := fun ops => ∀ op ∈ ops, op.fresh = ∅) ops hops ?_ ?_ ?_ ?_ ?_ ?_ ?_
  · exact fun op hop => (List.forall_iff_forall_mem.mp hostOps1_fresh) op hop
  · exact fun op hop => (List.forall_iff_forall_mem.mp hostOps1_1_fresh) op hop
  · exact fun op hop => (List.forall_iff_forall_mem.mp hostOps1_2_fresh) op hop
  · exact fun op hop => (List.forall_iff_forall_mem.mp hostOps1_3_fresh) op hop
  · exact fun op hop => (List.forall_iff_forall_mem.mp hostOps1_4_fresh) op hop
  · exact fun op hop => (List.forall_iff_forall_mem.mp hostOps1_5_fresh) op hop
  · exact fun op hop => (List.forall_iff_forall_mem.mp hostOps1_6_fresh) op hop

/-- The buffers no later operation writes: @main's five arguments and the pipeline's four arrays. -/
abbrev kept : List (Ref sig .tc) := [main_arg0, main_arg1, main_arg2, main_arg3, main_arg4, main_v0, main_v1, main_v2, main_v3]

/-- Each operation of this stretch writes only its own result buffer, which is none of the kept ones. -/
theorem hostOps1_keeps : (hostOps1 : List (HloOp τ sig (Elt F))).Forall fun op => ∀ b ∈ kept, Proc.devRef .tc b ∉ op.writes := by
  simp only [hostOps1, kept, List.Forall, List.forall_mem_cons, List.not_mem_nil, false_imp_iff, implies_true, and_true, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
/-- Each operation of this stretch writes only its own result buffer, which is none of the kept ones. -/
theorem hostOps1_1_keeps : (hostOps1_1 : List (HloOp τ sig (Elt F))).Forall fun op => ∀ b ∈ kept, Proc.devRef .tc b ∉ op.writes := by
  simp only [hostOps1_1, kept, List.Forall, List.forall_mem_cons, List.not_mem_nil, false_imp_iff, implies_true, and_true, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
/-- Each operation of this stretch writes only its own result buffer, which is none of the kept ones. -/
theorem hostOps1_2_keeps : (hostOps1_2 : List (HloOp τ sig (Elt F))).Forall fun op => ∀ b ∈ kept, Proc.devRef .tc b ∉ op.writes := by
  simp only [hostOps1_2, kept, List.Forall, List.forall_mem_cons, List.not_mem_nil, false_imp_iff, implies_true, and_true, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
/-- Each operation of this stretch writes only its own result buffer, which is none of the kept ones. -/
theorem hostOps1_3_keeps : (hostOps1_3 : List (HloOp τ sig (Elt F))).Forall fun op => ∀ b ∈ kept, Proc.devRef .tc b ∉ op.writes := by
  simp only [hostOps1_3, kept, List.Forall, List.forall_mem_cons, List.not_mem_nil, false_imp_iff, implies_true, and_true, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
/-- Each operation of this stretch writes only its own result buffer, which is none of the kept ones. -/
theorem hostOps1_4_keeps : (hostOps1_4 : List (HloOp τ sig (Elt F))).Forall fun op => ∀ b ∈ kept, Proc.devRef .tc b ∉ op.writes := by
  simp only [hostOps1_4, kept, List.Forall, List.forall_mem_cons, List.not_mem_nil, false_imp_iff, implies_true, and_true, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
/-- Each operation of this stretch writes only its own result buffer, which is none of the kept ones. -/
theorem hostOps1_5_keeps : (hostOps1_5 : List (HloOp τ sig (Elt F))).Forall fun op => ∀ b ∈ kept, Proc.devRef .tc b ∉ op.writes := by
  simp only [hostOps1_5, kept, List.Forall, List.forall_mem_cons, List.not_mem_nil, false_imp_iff, implies_true, and_true, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
/-- Each operation of this stretch writes only its own result buffer, which is none of the kept ones. -/
theorem hostOps1_6_keeps : (hostOps1_6 : List (HloOp τ sig (Elt F))).Forall fun op => ∀ b ∈ kept, Proc.devRef .tc b ∉ op.writes := by
  simp only [hostOps1_6, kept, List.Forall, List.forall_mem_cons, List.not_mem_nil, false_imp_iff, implies_true, and_true, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-- No later operation writes a kept buffer. -/
theorem tail_keeps (b : Ref sig .tc) (hb : b ∈ kept) :
    ∀ op ∈ (tailOps : List (List (HloOp τ sig (Elt F)))).flatten, Proc.devRef .tc b ∉ op.writes := by
  intro op hop
  obtain ⟨ops, hops, hop'⟩ := List.mem_flatten.mp hop
  exact tail_cases (P := fun ops => ∀ op ∈ ops, Proc.devRef .tc b ∉ op.writes) ops hops
    (fun op hop => (List.forall_iff_forall_mem.mp hostOps1_keeps) op hop b hb)
    (fun op hop => (List.forall_iff_forall_mem.mp hostOps1_1_keeps) op hop b hb)
    (fun op hop => (List.forall_iff_forall_mem.mp hostOps1_2_keeps) op hop b hb)
    (fun op hop => (List.forall_iff_forall_mem.mp hostOps1_3_keeps) op hop b hb)
    (fun op hop => (List.forall_iff_forall_mem.mp hostOps1_4_keeps) op hop b hb)
    (fun op hop => (List.forall_iff_forall_mem.mp hostOps1_5_keeps) op hop b hb)
    (fun op hop => (List.forall_iff_forall_mem.mp hostOps1_6_keeps) op hop b hb) op hop'

/-- In particular they write no array of the pipeline. -/
theorem sfx_keeps : ∀ ops ∈ (tailOps : List (List (HloOp τ sig (Elt F)))), ∀ op ∈ ops,
    ∀ w, Proc.devRef .tc (Pipeline.arrRef spec0 w) ∉ op.writes := by
  intro ops hops op hop w
  have hmem : op ∈ (tailOps : List (List (HloOp τ sig (Elt F)))).flatten := List.mem_flatten.mpr ⟨ops, hops, hop⟩
  fin_cases w
  · exact tail_keeps main_v0 (by simp [kept]) op hmem
  · exact tail_keeps main_v1 (by simp [kept]) op hmem
  · exact tail_keeps main_v2 (by simp [kept]) op hmem
  · exact tail_keeps main_v3 (by simp [kept]) op hmem

/-! ## The arguments are found as launched, and end as launched -/

/-- The three reshapes before the region do not write `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Nor does any later operation: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ (tail_keeps main_arg0 (by simp [kept])),
    Pipeline.withArrays_of_ne _ c (V0 m c) _ main_arg0 (by exact (by decide : ∀ w, Pipeline.arrRef spec0 w ≠ main_arg0))]
  exact V_main_arg0 m c

/-- The three reshapes before the region do not write `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Nor does any later operation: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (tail_keeps main_arg1 (by simp [kept])),
    Pipeline.withArrays_of_ne _ c (V0 m c) _ main_arg1 (by exact (by decide : ∀ w, Pipeline.arrRef spec0 w ≠ main_arg1))]
  exact V_main_arg1 m c

/-- The three reshapes before the region do not write `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Nor does any later operation: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (tail_keeps main_arg2 (by simp [kept])),
    Pipeline.withArrays_of_ne _ c (V0 m c) _ main_arg2 (by exact (by decide : ∀ w, Pipeline.arrRef spec0 w ≠ main_arg2))]
  exact V_main_arg2 m c

/-- The three reshapes before the region do not write `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Nor does any later operation: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  unfold Pipeline.afterTail₀
  rw [StableHlo.after_of_forall_not_mem (b := Proc.devRef .tc main_arg3) _ _ (tail_keeps main_arg3 (by simp [kept])),
    Pipeline.withArrays_of_ne _ c (V0 m c) _ main_arg3 (by exact (by decide : ∀ w, Pipeline.arrRef spec0 w ≠ main_arg3))]
  exact V_main_arg3 m c

/-- The three reshapes before the region do not write `main_arg4`. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Nor does any later operation: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) tailOps c main_arg4 = m ((c : Thread nD τ).loc main_arg4) := by
  unfold Pipeline.afterTail₀
  rw [StableHlo.after_of_forall_not_mem (b := Proc.devRef .tc main_arg4) _ _ (tail_keeps main_arg4 (by simp [kept])),
    Pipeline.withArrays_of_ne _ c (V0 m c) _ main_arg4 (by exact (by decide : ∀ w, Pipeline.arrRef spec0 w ≠ main_arg4))]
  exact V_main_arg4 m c

/-! ## The frame claim from a run to the pipeline's post -/

/-- A run of @main that ends with every bypassing buffer at the later operations' composition over the region's exit
    contents leaves the five arguments as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
    ((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c)⟩) h

end Cert.Kernel.Fr

end
-- ==== Proof.BitsRun.lean ====
/-
  The launch: every weakly fair execution of @main terminates, the pipeline's arrays ending at what the proof data
  computes (the 1×1 output at the accumulator's last contents) and every other buffer at the later host operations'
  composition over the region's exit; and from it the frame claim — the five arguments end as launched.
-/
import proofs.«168725_j1597727834375_1_alg».proof.Proof.BitsFrame
import proofs.«168725_j1597727834375_1_alg».proof.Proof.BitsTail

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
set_option backward.isDefEq.respectTransparency.types false in
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- The frame claim of the program, at any float family. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (run_main m ρ)

end Cert.Kernel.Fr

end
-- ==== Proof.IdealKit.lean ====
/-
  The heat-map loss kernel runs once per grid point t = 0 … 16 on the block of sixteen 256×256 planes
  [16t, 16t + 16) of each of its three reshaped operands (prediction, target, mask). A 1×1 scratch cell is the
  accumulator: it is cleared at t = 0, the block's masked squared error is added to it at every point, and at
  t = 16 it is copied into the 1×1 output window, which is written back only there.
  This module fixes what the three cases of the body (t = 0; 0 < t < 16; t = 16) and the frame are stated over:
  the buffers' contents when the region is entered (after the three reshapes), each window's block, the two branch
  conditions in closed form, where the output window is idle, and the memrefs the body is called with.
-/
import proofs.«168725_j1597727834375_1_alg».proof.Proof.Gen.KernelIdeal.Launch
import proofs.«168725_j1597727834375_1_alg».proof.Proof.Gen.KernelIdeal.Skeleton
import proofs.«168725_j1597727834375_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- The host operations that follow the region, stretch by stretch. -/
abbrev tailOps : List (List (HloOp τ sig (Elt F))) :=
  [hostOps1, hostOps1_1, hostOps1_2, hostOps1_3, hostOps1_4, hostOps1_5, hostOps1_6]

/-- Core `c`'s buffer contents when the region is entered: the launch contents after the three reshapes. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- Window `w`'s block at point `t`: planes [16t, 16t + 16) of its reshaped array (the whole 1×1 array for window 3). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block when the body is called, for any proof data whose array is the
    region-entry one and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The two branches of the body, decided over the grid -/

/-- "This is the first point": the condition under which the accumulator is cleared. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

/-- "This is the last point": the condition under which the accumulator is copied to the output. -/
abbrev cond0_1 (i : grid0.Coords) : Prop := k0_cond2 i = 1#1
theorem hcond0_1 : ∀ t : Fin cfg0.N, cond0_1 (grid0.coords t) ↔ t.val = 16 :=
  (by decide +kernel : ∀ t : Fin grid0.N, cond0_1 (grid0.coords t) ↔ t.val = 16)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last point nothing is stored into the output window and its block is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last point the output window is live. -/
theorem liveAt0_3 : ∀ t : Fin cfg0.N, cond0_1 (grid0.coords t) → cfg0.idle 3 (grid0.coords t) = false := by decide +kernel

/-! ## The memrefs the body is called with -/

/-- The output window's staging buffer as a view: its contents are stated through it. -/
abbrev VO0_3 : View sig .tc .vmem S1x1 .f32 := (Memref.whole cc0_stg3_0 : Memref sig .tc .vmem S1x1 .f32).view
abbrev ms0_0 (t : Fin cfg0.N) : Memref sig .tc .vmem S16x256x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x256x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x256x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)
/-- The accumulator: the kernel's one scratch cell. -/
abbrev scM0_0 : Memref sig .tc .vmem S1x1 .f32 := Memref.whole cc0_scratch0
abbrev VS0_0 : View sig .tc .vmem S1x1 .f32 := scM0_0.view

/-- What the launch hands the region besides the windows: the accumulator at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Fr

end
-- ==== Proof.IdealRunA.lean ====
/-
  The body of the heat-map loss kernel at the first grid point (the accumulator is cleared, then the block's sum is added; the output window is not touched), run once on whole staging memrefs.
  What each buffer the body stores into ends with is found by the run itself, as the list of the pieces stored
  (last first); the inputs are handed back as they were found.
-/
import proofs.«168725_j1597727834375_1_alg».proof.Proof.IdealKit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At the first point: whatever the accumulator held, it ends with the pieces `LS0`; the output window's buffer `arg4`
    is handed back at the contents `xi3` it was found with. -/
noncomputable def kernelRun0_A (c : Dev nD) (i : grid0.Coords) (arg1 : Memref sig .tc .vmem S16x256x256 .f32) (harg1 : arg1.IsWhole) (arg2 : Memref sig .tc .vmem S16x256x256 .f32) (harg2 : arg2.IsWhole) (arg3 : Memref sig .tc .vmem S16x256x256 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 x1 x2 : Vec F S16x256x256 .f32) :
    Σ' (L3 : List (View.Piece (Elt F) S1x1 .f32)), { LS0 : List (View.Piece (Elt F) S1x1 .f32) //
      ∀ (xi3 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc0_heatmap_loss_kernel i arg1 harg1 arg2 harg2 arg3 harg3 arg4 harg4 arg5 harg5) K } := by
  refine ⟨[], ?_, fun xi3 E K => ?run⟩
  case run =>
    simp only [cc0_heatmap_loss_kernel_eq_skeleton]; unfold cc0_heatmap_loss_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

end Cert.KernelIdeal.Fr

end
-- ==== Proof.IdealRunB.lean ====
/-
  The body of the heat-map loss kernel at a grid point that is neither the first nor the last (the block's sum is added to the accumulator; the output window is not touched), run once on whole staging memrefs.
  What each buffer the body stores into ends with is found by the run itself, as the list of the pieces stored
  (last first); the inputs are handed back as they were found.
-/
import proofs.«168725_j1597727834375_1_alg».proof.Proof.IdealKit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- In the middle: the accumulator is found at `xs0`, what the point before left, and ends with the pieces `LS0`; the
    output window's buffer `arg4` is handed back at the contents `xi3` it was found with. -/
noncomputable def kernelRun0_B (c : Dev nD) (i : grid0.Coords) (arg1 : Memref sig .tc .vmem S16x256x256 .f32) (harg1 : arg1.IsWhole) (arg2 : Memref sig .tc .vmem S16x256x256 .f32) (harg2 : arg2.IsWhole) (arg3 : Memref sig .tc .vmem S16x256x256 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 x1 x2 : Vec F S16x256x256 .f32) (xs0 : Vec F S1x1 .f32) :
    Σ' (L3 : List (View.Piece (Elt F) S1x1 .f32)), { LS0 : List (View.Piece (Elt F) S1x1 .f32) //
      ∀ (xi3 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xs0
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc0_heatmap_loss_kernel i arg1 harg1 arg2 harg2 arg3 harg3 arg4 harg4 arg5 harg5) K } := by
  refine ⟨[], ?_, fun xi3 E K => ?run⟩
  case run =>
    simp only [cc0_heatmap_loss_kernel_eq_skeleton]; unfold cc0_heatmap_loss_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

end Cert.KernelIdeal.Fr

end
-- ==== Proof.IdealRunC.lean ====
/-
  The body of the heat-map loss kernel at the last grid point (the block's sum is added to the accumulator, which is then copied into the output window), run once on whole staging memrefs.
  What each buffer the body stores into ends with is found by the run itself, as the list of the pieces stored
  (last first); the inputs are handed back as they were found.
-/
import proofs.«168725_j1597727834375_1_alg».proof.Proof.IdealKit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At the last point: the accumulator is found at `xs0` and ends with the pieces `LS0`; the output window's buffer
    `arg4`, whatever it held, ends with the pieces `L3`. -/
noncomputable def kernelRun0_C (c : Dev nD) (i : grid0.Coords) (arg1 : Memref sig .tc .vmem S16x256x256 .f32) (harg1 : arg1.IsWhole) (arg2 : Memref sig .tc .vmem S16x256x256 .f32) (harg2 : arg2.IsWhole) (arg3 : Memref sig .tc .vmem S16x256x256 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 x1 x2 : Vec F S16x256x256 .f32) (xs0 : Vec F S1x1 .f32) :
    Σ' (L3 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc0_heatmap_loss_kernel i arg1 harg1 arg2 harg2 arg3 harg3 arg4 harg4 arg5 harg5) K } := by
  refine ⟨?_, ?_, fun E K => ?run⟩
  case run =>
    simp only [cc0_heatmap_loss_kernel_eq_skeleton]; unfold cc0_heatmap_loss_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg1.eq_unread hf0; obtain rfl := harg2.eq_unread hf1; obtain rfl := harg3.eq_unread hf2; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

end Cert.KernelIdeal.Fr

end
-- ==== Proof.IdealFrame.lean ====
/-
  The accumulation, point by point, and the body's obligation to the pipeline.
  After grid point n the accumulator holds what point n's case leaves in it, computed from the point's three
  input blocks and (after the first point) from what point n − 1 left; the output window's staging buffer holds
  the accumulator's copy after the last point and is not consulted before. The region invariant carries the
  accumulator at exactly those contents from one point to the next, which is what lets the body find it there.
-/
import proofs.«168725_j1597727834375_1_alg».proof.Proof.IdealRunA
import proofs.«168725_j1597727834375_1_alg».proof.Proof.IdealRunB
import proofs.«168725_j1597727834375_1_alg».proof.Proof.IdealRunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What case A leaves in the output window's staging buffer: its pieces read back (none: a placeholder nothing consults, the window being idle and not written back at these points). -/
def out0_A_3 (c : Dev nD) (i : grid0.Coords) (arg1 : Memref sig .tc .vmem S16x256x256 .f32) (harg1 : arg1.IsWhole) (arg2 : Memref sig .tc .vmem S16x256x256 .f32) (harg2 : arg2.IsWhole) (arg3 : Memref sig .tc .vmem S16x256x256 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 x1 x2 : Vec F S16x256x256 .f32) : Vec F S1x1 .f32 :=
  VO0_3.read (Elt F) (VO0_3.writes (Elt F) VO0_3.junk (kernelRun0_A c i arg1 harg1 arg2 harg2 arg3 harg3 arg4 harg4 arg5 harg5 hc0 hc1 x0 x1 x2).1)

/-- Case A's stores into the accumulator cover its one cell. -/
theorem scover0_A_0 (c : Dev nD) (i : grid0.Coords) (arg1 : Memref sig .tc .vmem S16x256x256 .f32) (harg1 : arg1.IsWhole) (arg2 : Memref sig .tc .vmem S16x256x256 .f32) (harg2 : arg2.IsWhole) (arg3 : Memref sig .tc .vmem S16x256x256 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 x1 x2 : Vec F S16x256x256 .f32) (y : S1x1.Idx) :
    ∃ pc ∈ (kernelRun0_A c i arg1 harg1 arg2 harg2 arg3 harg3 arg4 harg4 arg5 harg5 hc0 hc1 x0 x1 x2).2.1, y ∈ pc.1.set :=
  View.cover_of_tiledL (kernelRun0_A c i arg1 harg1 arg2 harg2 arg3 harg3 arg4 harg4 arg5 harg5 hc0 hc1 x0 x1 x2).2.1 S1x1.size (by sl_kernel_rfl) y

/-- What case A leaves in the accumulator. -/
def sout0_A_0 (c : Dev nD) (i : grid0.Coords) (arg1 : Memref sig .tc .vmem S16x256x256 .f32) (harg1 : arg1.IsWhole) (arg2 : Memref sig .tc .vmem S16x256x256 .f32) (harg2 : arg2.IsWhole) (arg3 : Memref sig .tc .vmem S16x256x256 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 x1 x2 : Vec F S16x256x256 .f32) : Vec F S1x1 .f32 :=
  VS0_0.read (Elt F) (VS0_0.writes (Elt F) VS0_0.junk (kernelRun0_A c i arg1 harg1 arg2 harg2 arg3 harg3 arg4 harg4 arg5 harg5 hc0 hc1 x0 x1 x2).2.1)

/-- What case B leaves in the output window's staging buffer: its pieces read back (none: a placeholder nothing consults, the window being idle and not written back at these points). -/
def out0_B_3 (c : Dev nD) (i : grid0.Coords) (arg1 : Memref sig .tc .vmem S16x256x256 .f32) (harg1 : arg1.IsWhole) (arg2 : Memref sig .tc .vmem S16x256x256 .f32) (harg2 : arg2.IsWhole) (arg3 : Memref sig .tc .vmem S16x256x256 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 x1 x2 : Vec F S16x256x256 .f32) (xs0 : Vec F S1x1 .f32) : Vec F S1x1 .f32 :=
  VO0_3.read (Elt F) (VO0_3.writes (Elt F) VO0_3.junk (kernelRun0_B c i arg1 harg1 arg2 harg2 arg3 harg3 arg4 harg4 arg5 harg5 hc0 hc1 x0 x1 x2 xs0).1)

/-- Case B's stores into the accumulator cover its one cell. -/
theorem scover0_B_0 (c : Dev nD) (i : grid0.Coords) (arg1 : Memref sig .tc .vmem S16x256x256 .f32) (harg1 : arg1.IsWhole) (arg2 : Memref sig .tc .vmem S16x256x256 .f32) (harg2 : arg2.IsWhole) (arg3 : Memref sig .tc .vmem S16x256x256 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 x1 x2 : Vec F S16x256x256 .f32) (xs0 : Vec F S1x1 .f32) (y : S1x1.Idx) :
    ∃ pc ∈ (kernelRun0_B c i arg1 harg1 arg2 harg2 arg3 harg3 arg4 harg4 arg5 harg5 hc0 hc1 x0 x1 x2 xs0).2.1, y ∈ pc.1.set :=
  View.cover_of_tiledL (kernelRun0_B c i arg1 harg1 arg2 harg2 arg3 harg3 arg4 harg4 arg5 harg5 hc0 hc1 x0 x1 x2 xs0).2.1 S1x1.size (by sl_kernel_rfl) y

/-- What case B leaves in the accumulator. -/
def sout0_B_0 (c : Dev nD) (i : grid0.Coords) (arg1 : Memref sig .tc .vmem S16x256x256 .f32) (harg1 : arg1.IsWhole) (arg2 : Memref sig .tc .vmem S16x256x256 .f32) (harg2 : arg2.IsWhole) (arg3 : Memref sig .tc .vmem S16x256x256 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 x1 x2 : Vec F S16x256x256 .f32) (xs0 : Vec F S1x1 .f32) : Vec F S1x1 .f32 :=
  VS0_0.read (Elt F) (VS0_0.writes (Elt F) VS0_0.junk (kernelRun0_B c i arg1 harg1 arg2 harg2 arg3 harg3 arg4 harg4 arg5 harg5 hc0 hc1 x0 x1 x2 xs0).2.1)

/-- At the last point the one store into the output window covers its 1×1 block. -/
theorem cover0_C_3 (c : Dev nD) (i : grid0.Coords) (arg1 : Memref sig .tc .vmem S16x256x256 .f32) (harg1 : arg1.IsWhole) (arg2 : Memref sig .tc .vmem S16x256x256 .f32) (harg2 : arg2.IsWhole) (arg3 : Memref sig .tc .vmem S16x256x256 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 x1 x2 : Vec F S16x256x256 .f32) (xs0 : Vec F S1x1 .f32) (y : S1x1.Idx) :
    ∃ pc ∈ (kernelRun0_C c i arg1 harg1 arg2 harg2 arg3 harg3 arg4 harg4 arg5 harg5 hc0 hc1 x0 x1 x2 xs0).1, y ∈ pc.1.set :=
  View.cover_of_tiledL (kernelRun0_C c i arg1 harg1 arg2 harg2 arg3 harg3 arg4 harg4 arg5 harg5 hc0 hc1 x0 x1 x2 xs0).1 S1x1.size (by sl_kernel_rfl) y

/-- What case C leaves in the output window's staging buffer: its pieces read back. -/
def out0_C_3 (c : Dev nD) (i : grid0.Coords) (arg1 : Memref sig .tc .vmem S16x256x256 .f32) (harg1 : arg1.IsWhole) (arg2 : Memref sig .tc .vmem S16x256x256 .f32) (harg2 : arg2.IsWhole) (arg3 : Memref sig .tc .vmem S16x256x256 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 x1 x2 : Vec F S16x256x256 .f32) (xs0 : Vec F S1x1 .f32) : Vec F S1x1 .f32 :=
  VO0_3.read (Elt F) (VO0_3.writes (Elt F) VO0_3.junk (kernelRun0_C c i arg1 harg1 arg2 harg2 arg3 harg3 arg4 harg4 arg5 harg5 hc0 hc1 x0 x1 x2 xs0).1)

/-- Case C's stores into the accumulator cover its one cell. -/
theorem scover0_C_0 (c : Dev nD) (i : grid0.Coords) (arg1 : Memref sig .tc .vmem S16x256x256 .f32) (harg1 : arg1.IsWhole) (arg2 : Memref sig .tc .vmem S16x256x256 .f32) (harg2 : arg2.IsWhole) (arg3 : Memref sig .tc .vmem S16x256x256 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 x1 x2 : Vec F S16x256x256 .f32) (xs0 : Vec F S1x1 .f32) (y : S1x1.Idx) :
    ∃ pc ∈ (kernelRun0_C c i arg1 harg1 arg2 harg2 arg3 harg3 arg4 harg4 arg5 harg5 hc0 hc1 x0 x1 x2 xs0).2.1, y ∈ pc.1.set :=
  View.cover_of_tiledL (kernelRun0_C c i arg1 harg1 arg2 harg2 arg3 harg3 arg4 harg4 arg5 harg5 hc0 hc1 x0 x1 x2 xs0).2.1 S1x1.size (by sl_kernel_rfl) y

/-- What case C leaves in the accumulator. -/
def sout0_C_0 (c : Dev nD) (i : grid0.Coords) (arg1 : Memref sig .tc .vmem S16x256x256 .f32) (harg1 : arg1.IsWhole) (arg2 : Memref sig .tc .vmem S16x256x256 .f32) (harg2 : arg2.IsWhole) (arg3 : Memref sig .tc .vmem S16x256x256 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 x1 x2 : Vec F S16x256x256 .f32) (xs0 : Vec F S1x1 .f32) : Vec F S1x1 .f32 :=
  VS0_0.read (Elt F) (VS0_0.writes (Elt F) VS0_0.junk (kernelRun0_C c i arg1 harg1 arg2 harg2 arg3 harg3 arg4 harg4 arg5 harg5 hc0 hc1 x0 x1 x2 xs0).2.1)

/-! ## What the output window and the accumulator hold after each point -/

/-- After the body at position `n`: (the output window's staging buffer, the accumulator). Point 0 is case A; point 16
    is case C; the points between are case B; B and C read the accumulator as point `n − 1` left it. -/
def outsAt0 (c : Dev nD) : (n : ℕ) → n < cfg0.N → Vec F S1x1 .f32 × Vec F S1x1 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr rfl) (fun h => (show ¬(0 : ℕ) = 16 by decide) ((hcond0_1 ⟨0, hn⟩).mp h)) (iblk m c 0 ⟨0, hn⟩) (iblk m c 1 ⟨0, hn⟩) (iblk m c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr rfl) (fun h => (show ¬(0 : ℕ) = 16 by decide) ((hcond0_1 ⟨0, hn⟩).mp h)) (iblk m c 0 ⟨0, hn⟩) (iblk m c 1 ⟨0, hn⟩) (iblk m c 2 ⟨0, hn⟩))
  | n + 1, hn =>
    if h1 : n + 1 = 16 then
      (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => (Nat.succ_ne_zero n ((hcond0_0 ⟨n + 1, hn⟩).mp h)).elim) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => (Nat.succ_ne_zero n ((hcond0_0 ⟨n + 1, hn⟩).mp h)).elim) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2)
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => (Nat.succ_ne_zero n ((hcond0_0 ⟨n + 1, hn⟩).mp h)).elim) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => (Nat.succ_ne_zero n ((hcond0_0 ⟨n + 1, hn⟩).mp h)).elim) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2)

/-- `outsAt0` at the first point. -/
theorem outsAt0_A (c : Dev nD) (t : Fin cfg0.N) (h0 : t.val = 0) (h1 : ¬t.val = 16) :
    outsAt0 m c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)) := by
  obtain ⟨n, hn⟩ := t
  cases n with
  | zero => exact rfl
  | succ n => exact absurd h0 (Nat.succ_ne_zero n)

/-- `outsAt0` at a point strictly between the first and the last, over what the point before left. -/
theorem outsAt0_B (c : Dev nD) (t : Fin cfg0.N) (h0 : ¬t.val = 0) (h1 : ¬t.val = 16) :
    outsAt0 m c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2) := by
  obtain ⟨n, hn⟩ := t
  cases n with
  | zero => exact absurd rfl h0
  | succ n => exact (dif_neg h1).trans rfl

/-- `outsAt0` at the last point, over what the point before left. -/
theorem outsAt0_C (c : Dev nD) (t : Fin cfg0.N) (h0 : ¬t.val = 0) (h1 : t.val = 16) :
    outsAt0 m c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) := by
  obtain ⟨n, hn⟩ := t
  cases n with
  | zero => exact absurd rfl h0
  | succ n => exact (dif_pos h1).trans rfl

/-- The region invariant before position `n`: before the first point, what the launch hands over (the accumulator at
    anything); afterwards the accumulator at what the point before left in it, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data of the pipeline on core `c`: the arrays as the region finds them; after the body at point `t` each
    input's buffer at its block and the output's at `outsAt0`'s first component; the invariant `PhiS`; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' memrefs hold their blocks; the point's position says which case it is in; the
    invariant hands the body the accumulator at what the point before left (at anything at the first point) and takes
    it back at this point's contents; away from the last point the output window's buffer goes back untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 17 := lt_of_lt_of_eq t.isLt (show cfg0.N = 17 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  by_cases h0 : t.val = 0
  · have h1 : ¬t.val = 16 := by omega
    rw [Dat.leavesExact_idle (dats m 0 c) 3 t (idleAt0_3 t (fun h => h1 ((hcond0_1 t).mp h))) (noFlush0_3 t (fun h => h1 ((hcond0_1 t).mp h)))]
    rw [outsAt0_A m c t h0 h1]
    unfold sout0_A_0; (try dsimp only)
    rw [PhiS_castSucc m c t, PhiS_zero m c _ _ h0, PhiA0_eq]
    iintro ⟨⟨HS0, Hg⟩, Ho, ⟨%d0, H0⟩, ⟨%d1, H1⟩, ⟨%d2, H2⟩, ⟨%d3, H3⟩⟩
    iapply ((kernelRun0_A c (grid0.coords t) _ _ _ _ _ _ _ _ _ _ ((hcond0_0 t).mpr h0) (fun h => h1 ((hcond0_1 t).mp h)) (iblk m c 0 t) (iblk m c 1 t) (iblk m c 2 t)).2.2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 Hg]
    · isplitl [HS0]
      · unfold owns; iexists _; isplitr
        swap; · iexact HS0
        ipureintro; exact View.read_writes_of_cover _ _ _ _ _ (scover0_A_0 c _ _ _ _ _ _ _ _ _ _ _ _ _ _ _ _)
      iexact Hg
    isplitl [Ho]; · iexact Ho
    isplitl [H0]; · iexact H0
    isplitl [H1]; · iexact H1
    isplitl [H2]; · iexact H2
    iexists _; iexact H3
  · by_cases h1 : t.val = 16
    · rw [show (dats m 0 c).leavesExact 3 t = owns (c : Thread nD τ) (ms0_3 t) fullShare ((dats m 0 c).after 3 t) from by
        unfold Dat.leavesExact; rw [liveAt0_3 t ((hcond0_1 t).mpr h1)], after0_3]
      rw [outsAt0_C m c t h0 h1]
      unfold out0_C_3 sout0_C_0; (try dsimp only)
      rw [PhiS_castSucc m c t, PhiS_pos m c _ _ h0]
      iintro ⟨⟨HS0, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk m c 0 t) (iblk m c 1 t) (iblk m c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _)
    · rw [Dat.leavesExact_idle (dats m 0 c) 3 t (idleAt0_3 t (fun h => h1 ((hcond0_1 t).mp h))) (noFlush0_3 t (fun h => h1 ((hcond0_1 t).mp h)))]
      rw [outsAt0_B m c t h0 h1]
      unfold sout0_B_0; (try dsimp only)
      rw [PhiS_castSucc m c t, PhiS_pos m c _ _ h0]
      iintro ⟨⟨HS0, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk m c 0 t) (iblk m c 1 t) (iblk m c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives back what the launch handed over: the accumulator's contents are forgotten. -/
theorem hout (c : Dev nD) : (dats m 0 c).Φ (Fin.last cfg0.N) ⊢ Pipeline.ΦA spec0 c := by
  have ht : (Fin.last cfg0.N).val ≠ 0 := by rw [Fin.val_last]; have : cfg0.N = 17 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨HS0, Hg⟩
  isplitl [HS0]
  · iexists _; iexact HS0
  iexact Hg

end Cert.KernelIdeal.Fr

end
-- ==== Proof.IdealTail.lean ====
/-
  @main around the region: three reshapes, the region, and 108 host operations after it (the loss's scaling and the
  whole tag-loss chain, which reads only the tag map and the joint table). None of the later operations writes one of
  the pipeline's four arrays or one of @main's five arguments: each writes only its own result buffer. So the arguments
  end as launched, and what the later operations compute is their composition over the region's exit contents.
-/
import proofs.«168725_j1597727834375_1_alg».proof.Proof.IdealKit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The operations allocate nothing -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

/-! ## @main reduces to the region continued by the later operations -/

set_option maxHeartbeats 4000000 in
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4, StableHlo.seq hostOps1_5, StableHlo.seq hostOps1_6]) :=
  Pipeline.hmain_around cfgs 0 defs₀ 𝒱₀ m main [hostOps0] tailOps (by simp only [List.Forall]; exact hostOps0_sub)
    (by simp only [List.Forall]; exact hostOps0_fresh) main_chain

/-! ## What the later operations touch -/

/-- A property of every later stretch, from the seven stretches one by one. -/
theorem tail_cases {P : List (HloOp τ sig (Elt F)) → Prop} (ops : List (HloOp τ sig (Elt F))) (hops : ops ∈ (tailOps : List (List (HloOp τ sig (Elt F)))))
    (h0 : P hostOps1) (h1 : P hostOps1_1) (h2 : P hostOps1_2) (h3 : P hostOps1_3) (h4 : P hostOps1_4) (h5 : P hostOps1_5) (h6 : P hostOps1_6) : P ops := by
  simp only [List.mem_cons, List.mem_nil_iff, or_false] at hops
  rcases hops with rfl | rfl | rfl | rfl | rfl | rfl | rfl
  exacts [h0, h1, h2, h3, h4, h5, h6]

/-- They touch the pipeline's arrays and the bypassing buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops
  refine tail_cases (P := fun ops => ∀ op ∈ ops, op.bufs ⊆ _) ops hops ?_ ?_ ?_ ?_ ?_ ?_ ?_
  · exact fun op hop => Pipeline.sub_ucRefs op ((List.forall_iff_forall_mem.mp hostOps1_sub) op hop)
  · exact fun op hop => Pipeline.sub_ucRefs op ((List.forall_iff_forall_mem.mp hostOps1_1_sub) op hop)
  · exact fun op hop => Pipeline.sub_ucRefs op ((List.forall_iff_forall_mem.mp hostOps1_2_sub) op hop)
  · exact fun op hop => Pipeline.sub_ucRefs op ((List.forall_iff_forall_mem.mp hostOps1_3_sub) op hop)
  · exact fun op hop => Pipeline.sub_ucRefs op ((List.forall_iff_forall_mem.mp hostOps1_4_sub) op hop)
  · exact fun op hop => Pipeline.sub_ucRefs op ((List.forall_iff_forall_mem.mp hostOps1_5_sub) op hop)
  · exact fun op hop => Pipeline.sub_ucRefs op ((List.forall_iff_forall_mem.mp hostOps1_6_sub) op hop)

/-- They allocate nothing. -/
theorem sfx_fresh : ∀ ops ∈ (tailOps : List (List (HloOp τ sig (Elt F)))), ∀ op ∈ ops, op.fresh = ∅ := by
  intro ops hops
  refine tail_cases (P := fun ops => ∀ op ∈ ops, op.fresh = ∅) ops hops ?_ ?_ ?_ ?_ ?_ ?_ ?_
  · exact fun op hop => (List.forall_iff_forall_mem.mp hostOps1_fresh) op hop
  · exact fun op hop => (List.forall_iff_forall_mem.mp hostOps1_1_fresh) op hop
  · exact fun op hop => (List.forall_iff_forall_mem.mp hostOps1_2_fresh) op hop
  · exact fun op hop => (List.forall_iff_forall_mem.mp hostOps1_3_fresh) op hop
  · exact fun op hop => (List.forall_iff_forall_mem.mp hostOps1_4_fresh) op hop
  · exact fun op hop => (List.forall_iff_forall_mem.mp hostOps1_5_fresh) op hop
  · exact fun op hop => (List.forall_iff_forall_mem.mp hostOps1_6_fresh) op hop

/-- The buffers no later operation writes: @main's five arguments and the pipeline's four arrays. -/
abbrev kept : List (Ref sig .tc) := [main_arg0, main_arg1, main_arg2, main_arg3, main_arg4, main_v0, main_v1, main_v2, main_v3]

/-- Each operation of this stretch writes only its own result buffer, which is none of the kept ones. -/
theorem hostOps1_keeps : (hostOps1 : List (HloOp τ sig (Elt F))).Forall fun op => ∀ b ∈ kept, Proc.devRef .tc b ∉ op.writes := by
  simp only [hostOps1, kept, List.Forall, List.forall_mem_cons, List.not_mem_nil, false_imp_iff, implies_true, and_true, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
/-- Each operation of this stretch writes only its own result buffer, which is none of the kept ones. -/
theorem hostOps1_1_keeps : (hostOps1_1 : List (HloOp τ sig (Elt F))).Forall fun op => ∀ b ∈ kept, Proc.devRef .tc b ∉ op.writes := by
  simp only [hostOps1_1, kept, List.Forall, List.forall_mem_cons, List.not_mem_nil, false_imp_iff, implies_true, and_true, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
/-- Each operation of this stretch writes only its own result buffer, which is none of the kept ones. -/
theorem hostOps1_2_keeps : (hostOps1_2 : List (HloOp τ sig (Elt F))).Forall fun op => ∀ b ∈ kept, Proc.devRef .tc b ∉ op.writes := by
  simp only [hostOps1_2, kept, List.Forall, List.forall_mem_cons, List.not_mem_nil, false_imp_iff, implies_true, and_true, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
/-- Each operation of this stretch writes only its own result buffer, which is none of the kept ones. -/
theorem hostOps1_3_keeps : (hostOps1_3 : List (HloOp τ sig (Elt F))).Forall fun op => ∀ b ∈ kept, Proc.devRef .tc b ∉ op.writes := by
  simp only [hostOps1_3, kept, List.Forall, List.forall_mem_cons, List.not_mem_nil, false_imp_iff, implies_true, and_true, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
/-- Each operation of this stretch writes only its own result buffer, which is none of the kept ones. -/
theorem hostOps1_4_keeps : (hostOps1_4 : List (HloOp τ sig (Elt F))).Forall fun op => ∀ b ∈ kept, Proc.devRef .tc b ∉ op.writes := by
  simp only [hostOps1_4, kept, List.Forall, List.forall_mem_cons, List.not_mem_nil, false_imp_iff, implies_true, and_true, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
/-- Each operation of this stretch writes only its own result buffer, which is none of the kept ones. -/
theorem hostOps1_5_keeps : (hostOps1_5 : List (HloOp τ sig (Elt F))).Forall fun op => ∀ b ∈ kept, Proc.devRef .tc b ∉ op.writes := by
  simp only [hostOps1_5, kept, List.Forall, List.forall_mem_cons, List.not_mem_nil, false_imp_iff, implies_true, and_true, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
/-- Each operation of this stretch writes only its own result buffer, which is none of the kept ones. -/
theorem hostOps1_6_keeps : (hostOps1_6 : List (HloOp τ sig (Elt F))).Forall fun op => ∀ b ∈ kept, Proc.devRef .tc b ∉ op.writes := by
  simp only [hostOps1_6, kept, List.Forall, List.forall_mem_cons, List.not_mem_nil, false_imp_iff, implies_true, and_true, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-- No later operation writes a kept buffer. -/
theorem tail_keeps (b : Ref sig .tc) (hb : b ∈ kept) :
    ∀ op ∈ (tailOps : List (List (HloOp τ sig (Elt F)))).flatten, Proc.devRef .tc b ∉ op.writes := by
  intro op hop
  obtain ⟨ops, hops, hop'⟩ := List.mem_flatten.mp hop
  exact tail_cases (P := fun ops => ∀ op ∈ ops, Proc.devRef .tc b ∉ op.writes) ops hops
    (fun op hop => (List.forall_iff_forall_mem.mp hostOps1_keeps) op hop b hb)
    (fun op hop => (List.forall_iff_forall_mem.mp hostOps1_1_keeps) op hop b hb)
    (fun op hop => (List.forall_iff_forall_mem.mp hostOps1_2_keeps) op hop b hb)
    (fun op hop => (List.forall_iff_forall_mem.mp hostOps1_3_keeps) op hop b hb)
    (fun op hop => (List.forall_iff_forall_mem.mp hostOps1_4_keeps) op hop b hb)
    (fun op hop => (List.forall_iff_forall_mem.mp hostOps1_5_keeps) op hop b hb)
    (fun op hop => (List.forall_iff_forall_mem.mp hostOps1_6_keeps) op hop b hb) op hop'

/-- In particular they write no array of the pipeline. -/
theorem sfx_keeps : ∀ ops ∈ (tailOps : List (List (HloOp τ sig (Elt F)))), ∀ op ∈ ops,
    ∀ w, Proc.devRef .tc (Pipeline.arrRef spec0 w) ∉ op.writes := by
  intro ops hops op hop w
  have hmem : op ∈ (tailOps : List (List (HloOp τ sig (Elt F)))).flatten := List.mem_flatten.mpr ⟨ops, hops, hop⟩
  fin_cases w
  · exact tail_keeps main_v0 (by simp [kept]) op hmem
  · exact tail_keeps main_v1 (by simp [kept]) op hmem
  · exact tail_keeps main_v2 (by simp [kept]) op hmem
  · exact tail_keeps main_v3 (by simp [kept]) op hmem

/-! ## The arguments are found as launched, and end as launched -/

/-- The three reshapes before the region do not write `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Nor does any later operation: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ (tail_keeps main_arg0 (by simp [kept])),
    Pipeline.withArrays_of_ne _ c (V0 m c) _ main_arg0 (by exact (by decide : ∀ w, Pipeline.arrRef spec0 w ≠ main_arg0))]
  exact V_main_arg0 m c

/-- The three reshapes before the region do not write `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Nor does any later operation: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (tail_keeps main_arg1 (by simp [kept])),
    Pipeline.withArrays_of_ne _ c (V0 m c) _ main_arg1 (by exact (by decide : ∀ w, Pipeline.arrRef spec0 w ≠ main_arg1))]
  exact V_main_arg1 m c

/-- The three reshapes before the region do not write `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Nor does any later operation: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (tail_keeps main_arg2 (by simp [kept])),
    Pipeline.withArrays_of_ne _ c (V0 m c) _ main_arg2 (by exact (by decide : ∀ w, Pipeline.arrRef spec0 w ≠ main_arg2))]
  exact V_main_arg2 m c

/-- The three reshapes before the region do not write `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Nor does any later operation: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  unfold Pipeline.afterTail₀
  rw [StableHlo.after_of_forall_not_mem (b := Proc.devRef .tc main_arg3) _ _ (tail_keeps main_arg3 (by simp [kept])),
    Pipeline.withArrays_of_ne _ c (V0 m c) _ main_arg3 (by exact (by decide : ∀ w, Pipeline.arrRef spec0 w ≠ main_arg3))]
  exact V_main_arg3 m c

/-- The three reshapes before the region do not write `main_arg4`. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Nor does any later operation: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) tailOps c main_arg4 = m ((c : Thread nD τ).loc main_arg4) := by
  unfold Pipeline.afterTail₀
  rw [StableHlo.after_of_forall_not_mem (b := Proc.devRef .tc main_arg4) _ _ (tail_keeps main_arg4 (by simp [kept])),
    Pipeline.withArrays_of_ne _ c (V0 m c) _ main_arg4 (by exact (by decide : ∀ w, Pipeline.arrRef spec0 w ≠ main_arg4))]
  exact V_main_arg4 m c

/-! ## The frame claim from a run to the pipeline's post -/

/-- A run of @main that ends with every bypassing buffer at the later operations' composition over the region's exit
    contents leaves the five arguments as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
    ((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c)⟩) h

end Cert.KernelIdeal.Fr

end
-- ==== Proof.IdealRun.lean ====
/-
  The launch: every weakly fair execution of @main terminates, the pipeline's arrays ending at what the proof data
  computes (the 1×1 output at the accumulator's last contents) and every other buffer at the later host operations'
  composition over the region's exit; and from it the frame claim — the five arguments end as launched.
-/
import proofs.«168725_j1597727834375_1_alg».proof.Proof.IdealFrame
import proofs.«168725_j1597727834375_1_alg».proof.Proof.IdealTail

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
set_option backward.isDefEq.respectTransparency.types false in
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- The frame claim of the program, at any float family. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (run_main m ρ)

end Cert.KernelIdeal.Fr

end
-- ==== Proof.IdealPieces.lean ====
/-
  What each case of the body leaves, as the body's own arithmetic. Every load and store of the kernel goes through
  the whole-buffer rectangle at zero offsets, so a load reads the buffer's contents, one store leaves its value, and
  a load after a store reads the value stored. Hence: the first point leaves in the accumulator the block's sum added
  to the cleared cell; every later point leaves the block's sum added to what it found; and the last point's output
  is the accumulator it has just updated.
-/
import proofs.«168725_j1597727834375_1_alg».proof.Proof.IdealFrame
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The zero offsets of a rank-2 and of a rank-3 whole-buffer rectangle. -/
theorem hz2 : (![0, 0] : Fin 2 → Nat) = fun _ => 0 := by funext a; fin_cases a <;> rfl
theorem hz3 : (![0, 0, 0] : Fin 3 → Nat) = fun _ => 0 := by funext a; fin_cases a <;> rfl

theorem sout0_A_0_eq (c : Dev nD) (i : grid0.Coords) (arg1 : Memref sig .tc .vmem S16x256x256 .f32) (harg1 : arg1.IsWhole) (arg2 : Memref sig .tc .vmem S16x256x256 .f32) (harg2 : arg2.IsWhole) (arg3 : Memref sig .tc .vmem S16x256x256 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 x1 x2 : Vec F S16x256x256 .f32) :
    sout0_A_0 c i arg1 harg1 arg2 harg2 arg3 harg3 arg4 harg4 arg5 harg5 hc0 hc1 x0 x1 x2 = k0_pay2 x0 x1 x2 (k0_pay1 (F := F)) := by
  unfold sout0_A_0
  rw [View.read_writes_eq_canon _ _ _ (scover0_A_0 c i arg1 harg1 arg2 harg2 arg3 harg3 arg4 harg4 arg5 harg5 hc0 hc1 x0 x1 x2)]
  unfold kernelRun0_A
  dsimp only
  sl_unfold_words
  rw [View.canon_cons_unit_zero (S := S1x1) hz2]
  simp only [View.readAt_eq_ld, harg1.read_unread, harg2.read_unread, harg3.read_unread, harg5.read_unread, View.ld_unit_zero (S := S16x256x256) hz3, View.ld_unit_zero (S := S1x1) hz2, View.readCov_unit_zero (S := S1x1) _ hz2]

theorem sout0_B_0_eq (c : Dev nD) (i : grid0.Coords) (arg1 : Memref sig .tc .vmem S16x256x256 .f32) (harg1 : arg1.IsWhole) (arg2 : Memref sig .tc .vmem S16x256x256 .f32) (harg2 : arg2.IsWhole) (arg3 : Memref sig .tc .vmem S16x256x256 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 x1 x2 : Vec F S16x256x256 .f32) (xs0 : Vec F S1x1 .f32) :
    sout0_B_0 c i arg1 harg1 arg2 harg2 arg3 harg3 arg4 harg4 arg5 harg5 hc0 hc1 x0 x1 x2 xs0 = k0_pay2 x0 x1 x2 xs0 := by
  unfold sout0_B_0
  rw [View.read_writes_eq_canon _ _ _ (scover0_B_0 c i arg1 harg1 arg2 harg2 arg3 harg3 arg4 harg4 arg5 harg5 hc0 hc1 x0 x1 x2 xs0)]
  unfold kernelRun0_B
  dsimp only
  sl_unfold_words
  rw [View.canon_unit_zero hz2]
  simp only [View.readAt_eq_ld, harg1.read_unread, harg2.read_unread, harg3.read_unread, harg5.read_unread, View.ld_unit_zero (S := S16x256x256) hz3, View.ld_unit_zero (S := S1x1) hz2, View.readCov_unit_zero (S := S1x1) _ hz2]

theorem sout0_C_0_eq (c : Dev nD) (i : grid0.Coords) (arg1 : Memref sig .tc .vmem S16x256x256 .f32) (harg1 : arg1.IsWhole) (arg2 : Memref sig .tc .vmem S16x256x256 .f32) (harg2 : arg2.IsWhole) (arg3 : Memref sig .tc .vmem S16x256x256 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 x1 x2 : Vec F S16x256x256 .f32) (xs0 : Vec F S1x1 .f32) :
    sout0_C_0 c i arg1 harg1 arg2 harg2 arg3 harg3 arg4 harg4 arg5 harg5 hc0 hc1 x0 x1 x2 xs0 = k0_pay2 x0 x1 x2 xs0 := by
  unfold sout0_C_0
  rw [View.read_writes_eq_canon _ _ _ (scover0_C_0 c i arg1 harg1 arg2 harg2 arg3 harg3 arg4 harg4 arg5 harg5 hc0 hc1 x0 x1 x2 xs0)]
  unfold kernelRun0_C
  dsimp only
  sl_unfold_words
  rw [View.canon_unit_zero hz2]
  simp only [View.readAt_eq_ld, harg1.read_unread, harg2.read_unread, harg3.read_unread, harg5.read_unread, View.ld_unit_zero (S := S16x256x256) hz3, View.ld_unit_zero (S := S1x1) hz2, View.readCov_unit_zero (S := S1x1) _ hz2]

theorem out0_C_3_eq (c : Dev nD) (i : grid0.Coords) (arg1 : Memref sig .tc .vmem S16x256x256 .f32) (harg1 : arg1.IsWhole) (arg2 : Memref sig .tc .vmem S16x256x256 .f32) (harg2 : arg2.IsWhole) (arg3 : Memref sig .tc .vmem S16x256x256 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 x1 x2 : Vec F S16x256x256 .f32) (xs0 : Vec F S1x1 .f32) :
    out0_C_3 c i arg1 harg1 arg2 harg2 arg3 harg3 arg4 harg4 arg5 harg5 hc0 hc1 x0 x1 x2 xs0 = k0_pay2 x0 x1 x2 xs0 := by
  unfold out0_C_3
  rw [View.read_writes_eq_canon _ _ _ (cover0_C_3 c i arg1 harg1 arg2 harg2 arg3 harg3 arg4 harg4 arg5 harg5 hc0 hc1 x0 x1 x2 xs0)]
  unfold kernelRun0_C
  dsimp only
  sl_unfold_words
  rw [View.canon_unit_zero hz2]
  simp only [View.readAt_eq_ld, harg1.read_unread, harg2.read_unread, harg3.read_unread, harg5.read_unread, View.ld_unit_zero (S := S16x256x256) hz3, View.ld_unit_zero (S := S1x1) hz2, View.readCov_unit_zero (S := S1x1) _ hz2]

end Cert.KernelIdeal.Fr

end
-- ==== Proof.IdealPayload.lean ====
import proofs.«168725_j1597727834375_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import Mathlib.Algebra.BigOperators.Group.Finset.Basic

noncomputable section
namespace Cert.KernelIdeal.Pay
open Cert.KernelIdeal Cert.KernelIdeal.Gen Idealize.ShloMosaic
open scoped BigOperators

/-- The masked squared error at one entry. -/
def err (p g k : EReal) : EReal := (p - g) * (p - g) * k

/-! ## Layout: a trailing unit axis added by a shape cast -/

/-- An `[a, b]` array cast to `[a, b, 1]` reads, at `(i, j, u)`, the operand at `(i, j)`: the row-major position
    `(i * b + j) * 1 + u` is `i * b + j`, the unit coordinate `u` being `0`. -/
theorem shapeCast_ab_ab1_apply {α : Type} {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ValueIdx.ix3 i j u) = x (ValueIdx.ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-! ## The three lane sums, each read at an index as the sum over the reduced axis's coordinates -/

/-- The sum over the last axis of a `[16, 256, 256]` vector, at `(a, b)`: the source index over `(a, b)` with `c`
    inserted on axis 2 is `(a, b, c)`. -/
theorem sumAxis2_apply (src : FVec Ideal S16x256x256 .f32) (acc : BitVec FTy.f32.bits)
    (h : S16x256x256.Reduces [2] S16x256) (hφ : FKind.Formats .f32) (hacc : acc = FKind.add.neutral .f32 hφ)
    (a : Fin 16) (b : Fin 256) :
    multiReduction (F := Ideal) .add [2] S16x256 src acc h hφ hacc (ValueIdx.ix2 a b)
      = ∑ c : Fin 256, src (ValueIdx.ix3 a b c) := by
  refine (Ideal.multiReduction_add_single src acc h hφ hacc _).trans ?_
  refine Finset.sum_congr rfl fun k _ => congrArg src ?_
  funext d
  match d with
  | ⟨0, _⟩ => exact Fin.ext rfl
  | ⟨1, _⟩ => exact Fin.ext rfl
  | ⟨2, _⟩ => exact Fin.ext rfl

/-- The sum over the middle axis of a `[16, 256, 1]` vector, at `(a, u)`: the source index over `(a, u)` with `b`
    inserted on axis 1 is `(a, b, u)`. -/
theorem sumAxis1_apply (src : FVec Ideal S16x256x1 .f32) (acc : BitVec FTy.f32.bits)
    (h : S16x256x1.Reduces [1] S16x1) (hφ : FKind.Formats .f32) (hacc : acc = FKind.add.neutral .f32 hφ)
    (a : Fin 16) (u : Fin 1) :
    multiReduction (F := Ideal) .add [1] S16x1 src acc h hφ hacc (ValueIdx.ix2 a u)
      = ∑ b : Fin 256, src (ValueIdx.ix3 a b u) := by
  refine (Ideal.multiReduction_add_single src acc h hφ hacc _).trans ?_
  refine Finset.sum_congr rfl fun k _ => congrArg src ?_
  funext d
  match d with
  | ⟨0, _⟩ => exact Fin.ext rfl
  | ⟨1, _⟩ => exact Fin.ext rfl
  | ⟨2, _⟩ => exact Fin.ext rfl

/-- The sum over the first axis of a `[16, 1, 1]` vector, at `(u, v)`: the source index over `(u, v)` with `a`
    inserted on axis 0 is `(a, u, v)`. -/
theorem sumAxis0_apply (src : FVec Ideal S16x1x1 .f32) (acc : BitVec FTy.f32.bits)
    (h : S16x1x1.Reduces [0] S1x1) (hφ : FKind.Formats .f32) (hacc : acc = FKind.add.neutral .f32 hφ)
    (u v : Fin 1) :
    multiReduction (F := Ideal) .add [0] S1x1 src acc h hφ hacc (ValueIdx.ix2 u v)
      = ∑ a : Fin 16, src (ValueIdx.ix3 a u v) := by
  refine (Ideal.multiReduction_add_single src acc h hφ hacc _).trans ?_
  refine Finset.sum_congr rfl fun k _ => congrArg src ?_
  funext d
  match d with
  | ⟨0, _⟩ => exact Fin.ext rfl
  | ⟨1, _⟩ => exact Fin.ext rfl
  | ⟨2, _⟩ => exact Fin.ext rfl

/-! ## The two stored values -/

/-- The value that clears the accumulator is zero. -/
theorem pay1_at : k0_pay1 (F := Ideal) (ValueIdx.ix2 (0 : Fin 1) (0 : Fin 1)) = 0 := by
  unfold k0_pay1
  simp only [shapeCast_self, ValueIdx.broadcast_apply]
  exact Ideal.ofBits_zero_f32

/-- The value stored back into the accumulator is what it held plus the block's masked squared error, summed over the block. -/
theorem pay2_at (x0 x1 x2 : Vec Ideal S16x256x256 .f32) (acc : Vec Ideal S1x1 .f32) :
    k0_pay2 (F := Ideal) x0 x1 x2 acc (ValueIdx.ix2 (0 : Fin 1) (0 : Fin 1))
      = acc (ValueIdx.ix2 (0 : Fin 1) (0 : Fin 1))
        + ∑ a : Fin 16, ∑ b : Fin 256, ∑ c : Fin 256, err (x0 (ValueIdx.ix3 a b c)) (x1 (ValueIdx.ix3 a b c)) (x2 (ValueIdx.ix3 a b c)) := by
  unfold k0_pay2
  -- the casts to the same shape, and the cast to [1, 1, 1] and back, are identities
  simp only [shapeCast_self, shapeCast_shapeCast]
  -- the stored value is the accumulator plus the total, and the total is the sum over the 16 slabs …
  rw [ValueIdx.addf_apply]
  refine congrArg (acc (ValueIdx.ix2 (0 : Fin 1) (0 : Fin 1)) + ·) ?_
  refine (sumAxis0_apply _ _ _ _ _ _ _).trans ?_
  refine Finset.sum_congr rfl fun a _ => ?_
  -- … of the sum over a slab's 256 rows …
  refine (shapeCast_ab_ab1_apply _ _ _ _ _).trans ?_
  refine (sumAxis1_apply _ _ _ _ _ _ _).trans ?_
  refine Finset.sum_congr rfl fun b _ => ?_
  -- … of the sum over a row's 256 lanes of the masked squared difference
  refine (shapeCast_ab_ab1_apply _ _ _ _ _).trans ?_
  refine (sumAxis2_apply _ _ _ _ _ _ _).trans ?_
  refine Finset.sum_congr rfl fun c _ => ?_
  rfl

end Cert.KernelIdeal.Pay
end
-- ==== Proof.IdealValue.lean ====
/-
  The accumulator over the extended reals. Writing s(t) for the masked squared error summed over grid point t's
  block, the accumulator's one entry after point n is s(0) + s(1) + … + s(n): point 0 clears it and adds s(0), every
  later point adds its s(t) to what it finds. Point 16 copies the updated accumulator into the 1×1 output window,
  which is written back there and nowhere else, so the pipeline's output array ends at s(0) + … + s(16).
-/
import proofs.«168725_j1597727834375_1_alg».proof.Proof.IdealPieces
import proofs.«168725_j1597727834375_1_alg».proof.Proof.IdealPayload
import Idealize.ShloMosaic.Lib.ValueIdx
import Idealize.ShloMosaic.Lib.Pipeline.Value
import Mathlib.Algebra.BigOperators.Group.Finset.Basic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- Grid point `t`'s three input blocks, at their literal type. -/
abbrev blk0 (c : Dev nD) (t : Fin cfg0.N) : Vec Ideal S16x256x256 .f32 := iblk m c 0 t
abbrev blk1 (c : Dev nD) (t : Fin cfg0.N) : Vec Ideal S16x256x256 .f32 := iblk m c 1 t
abbrev blk2 (c : Dev nD) (t : Fin cfg0.N) : Vec Ideal S16x256x256 .f32 := iblk m c 2 t

/-- The one index of a 1×1 vector. -/
abbrev o11 : S1x1.Idx := ValueIdx.ix2 (0 : Fin 1) (0 : Fin 1)

/-- s(t): the masked squared error summed over point `t`'s block. -/
def bsum (c : Dev nD) (t : Fin cfg0.N) : EReal :=
  ∑ a : Fin 16, ∑ b : Fin 256, ∑ k : Fin 256,
    Pay.err (blk0 m c t (ValueIdx.ix3 a b k)) (blk1 m c t (ValueIdx.ix3 a b k)) (blk2 m c t (ValueIdx.ix3 a b k))

/-- s at a position that may lie past the grid (zero there), so that a running sum over `Finset.range` can be stated. -/
def bsumN (c : Dev nD) (n : ℕ) : EReal := if h : n < cfg0.N then bsum m c ⟨n, h⟩ else 0

theorem bsumN_of_lt (c : Dev nD) (t : Fin cfg0.N) : bsumN m c t.val = bsum m c t := by
  unfold bsumN; rw [dif_pos t.isLt]

/-- The accumulator's entry after a point, as a vector of the literal type. -/
abbrev accAt (c : Dev nD) (n : ℕ) (hn : n < cfg0.N) : Vec Ideal S1x1 .f32 := (outsAt0 m c n hn).2

/-- After the first point the accumulator holds s(0). -/
theorem acc_first (c : Dev nD) (t : Fin cfg0.N) (h0 : t.val = 0) :
    accAt m c t.val t.isLt o11 = bsum m c t := by
  have h1 : ¬t.val = 16 := by omega
  unfold accAt
  rw [outsAt0_A m c t h0 h1]
  dsimp only
  refine (congrFun (sout0_A_0_eq (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (blk0 m c t) (blk1 m c t) (blk2 m c t)) o11).trans ?_
  refine (Pay.pay2_at (blk0 m c t) (blk1 m c t) (blk2 m c t) (k0_pay1 (F := Ideal))).trans ?_
  rw [Pay.pay1_at, zero_add]
  rfl

/-- After a later point it holds what the point before left plus s(t). -/
theorem acc_next (c : Dev nD) (t : Fin cfg0.N) (h0 : ¬t.val = 0) :
    accAt m c t.val t.isLt o11 = accAt m c (t.val - 1) (Nat.lt_of_le_of_lt (Nat.sub_le _ _) t.isLt) o11 + bsum m c t := by
  unfold accAt
  by_cases h1 : t.val = 16
  · rw [outsAt0_C m c t h0 h1]
    dsimp only
    refine (congrFun (sout0_C_0_eq (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (blk0 m c t) (blk1 m c t) (blk2 m c t) (outsAt0 m c (t.val - 1) (Nat.lt_of_le_of_lt (Nat.sub_le _ _) t.isLt)).2) o11).trans ?_
    exact Pay.pay2_at (blk0 m c t) (blk1 m c t) (blk2 m c t) _
  · rw [outsAt0_B m c t h0 h1]
    dsimp only
    refine (congrFun (sout0_B_0_eq (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (blk0 m c t) (blk1 m c t) (blk2 m c t) (outsAt0 m c (t.val - 1) (Nat.lt_of_le_of_lt (Nat.sub_le _ _) t.isLt)).2) o11).trans ?_
    exact Pay.pay2_at (blk0 m c t) (blk1 m c t) (blk2 m c t) _

/-- The running sum: after point `n` the accumulator holds s(0) + … + s(n). -/
theorem acc_sum (c : Dev nD) : ∀ (n : ℕ) (hn : n < cfg0.N), accAt m c n hn o11 = ∑ s ∈ Finset.range (n + 1), bsumN m c s
  | 0, hn => by
    rw [Finset.sum_range_one]
    exact (acc_first m c ⟨0, hn⟩ rfl).trans (bsumN_of_lt m c ⟨0, hn⟩).symm
  | n + 1, hn => by
    rw [Finset.sum_range_succ, ← acc_sum c n (Nat.lt_of_succ_lt hn)]
    exact (acc_next m c ⟨n + 1, hn⟩ (Nat.succ_ne_zero n)).trans (congrArg _ (bsumN_of_lt m c ⟨n + 1, hn⟩).symm)

/-- The last point's position. -/
theorem lt16 : 16 < cfg0.N := by have h : cfg0.N = 17 := N_0; omega

/-- At the last point the output window's buffer is left at the accumulator's new contents. -/
theorem out_last (c : Dev nD) (t : Fin cfg0.N) (h1 : t.val = 16) :
    ((outsAt0 m c t.val t.isLt).1 : Vec Ideal S1x1 .f32) = accAt m c t.val t.isLt := by
  have h0 : ¬t.val = 0 := by omega
  unfold accAt
  rw [outsAt0_C m c t h0 h1]
  dsimp only
  exact (out0_C_3_eq (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (blk0 m c t) (blk1 m c t) (blk2 m c t) _).trans
    (sout0_C_0_eq (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (blk0 m c t) (blk1 m c t) (blk2 m c t) _).symm

/-- The output window's block index is (0, 0) at every point. -/
theorem out_index : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- What the last point writes back is the whole 1×1 array at the accumulator's last contents. -/
theorem flushed3_eq (c : Dev nD) (t : Fin cfg0.N) (hf : (cfg0.win 3).flush t = true) :
    (dats m 0 c).flushed 3 t = ((cfg0.win 3).blk t).view.read (Elt Ideal) (accAt m c 16 lt16 : S1x1.Idx → Elt Ideal .f32) := by
  have h1 : t.val = 16 := by
    have := (flush0_3 t).mp hf
    have hN : t.val < 17 := lt_of_lt_of_eq t.isLt (show cfg0.N = 17 from N_0)
    omega
  show (cfg0.win 3).cut (grid0.coords t) ((dats m 0 c).after 3 t) = _
  rw [after0_3, out_last m c t h1]
  obtain ⟨n, hn⟩ := t
  obtain rfl : n = 16 := h1
  obtain ⟨e0, e1⟩ := out_index ⟨16, hn⟩
  funext j
  show accAt m c 16 hn j = accAt m c 16 lt16 (((cfg0.win 3).blk ⟨16, hn⟩).view.emb j)
  have he : ((cfg0.win 3).blk ⟨16, hn⟩).view.emb j = j := by
    funext a; apply Fin.ext
    match a with
    | ⟨0, _⟩ => show win0_3.index ⟨16, hn⟩ (0 : Fin 2) * 1 + 1 * (j 0).val = (j 0).val; omega
    | ⟨1, _⟩ => show win0_3.index ⟨16, hn⟩ (1 : Fin 2) * 1 + 1 * (j 1).val = (j 1).val; omega
  rw [he]

/-- The pipeline's output array after the run: its one entry is s(0) + … + s(16). -/
theorem out_final (c : Dev nD) :
    ((dats m 0 c).arrAt 3 cfg0.N : S1x1.Idx → Elt Ideal .f32) o11 = ∑ s ∈ Finset.range 17, bsumN m c s := by
  have hflush : (cfg0.win 3).flush ⟨16, lt16⟩ = true := (flush0_3 ⟨16, lt16⟩).mpr (by decide)
  have hmem : (o11 : S1x1.Idx) ∈ ((cfg0.win 3).blk ⟨16, lt16⟩).view.set := by
    show o11 ∈ ((View.whole main_v3).slice (win0_3.rect ⟨16, lt16⟩)).set
    rw [View.set_slice_whole, Rect.mem_set_unit]
    obtain ⟨e0, e1⟩ := out_index ⟨16, lt16⟩
    intro a
    match a with
    | ⟨0, _⟩ => show win0_3.index ⟨16, lt16⟩ (0 : Fin 2) * 1 ≤ 0 ∧ 0 < win0_3.index ⟨16, lt16⟩ (0 : Fin 2) * 1 + 1; omega
    | ⟨1, _⟩ => show win0_3.index ⟨16, lt16⟩ (1 : Fin 2) * 1 ≤ 0 ∧ 0 < win0_3.index ⟨16, lt16⟩ (1 : Fin 2) * 1 + 1; omega
  refine ((dats m 0 c).arrAt_apply_of_mem 3 (accAt m c 16 lt16 : S1x1.Idx → Elt Ideal .f32) (fun t hf => flushed3_eq m c t hf) cfg0.N ⟨16, lt16⟩ o11 lt16 hflush hmem).trans ?_
  exact acc_sum m c 16 lt16

end Cert.KernelIdeal.Fr

end
-- ==== Proof.IdealBlocks.lean ====
/-
  The three operands the kernel's windows stage are reshapes of @main's first three arguments from [16,17,256,256] to
  [272,256,256], and grid point t's block of each is planes 16 t … 16 t + 15 of that reshaped array: entry (a, b, k) of
  the block is entry (16 t + a, b, k) of the array.
-/
import proofs.«168725_j1597727834375_1_alg».proof.Proof.IdealKit
import Idealize.ShloMosaic.Lib.ValueIdx
import Idealize.ShloMosaic.Lib.Pipeline.Value
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window 0's index map, decided over the 17 grid points: point t's block index is (t, 0, 0). -/
private theorem blockIndex0 : ∀ t : Fin cfg0.N, win0_0.index t (0 : Fin 3) = t.val ∧ win0_0.index t (1 : Fin 3) = 0 ∧ win0_0.index t (2 : Fin 3) = 0 :=
  (by decide +kernel : ∀ t : Fin grid0.N, win0_0.index t (0 : Fin 3) = t.val ∧ win0_0.index t (1 : Fin 3) = 0 ∧ win0_0.index t (2 : Fin 3) = 0)

/-- Window 1's index map, decided over the 17 grid points: point t's block index is (t, 0, 0). -/
private theorem blockIndex1 : ∀ t : Fin cfg0.N, win0_1.index t (0 : Fin 3) = t.val ∧ win0_1.index t (1 : Fin 3) = 0 ∧ win0_1.index t (2 : Fin 3) = 0 :=
  (by decide +kernel : ∀ t : Fin grid0.N, win0_1.index t (0 : Fin 3) = t.val ∧ win0_1.index t (1 : Fin 3) = 0 ∧ win0_1.index t (2 : Fin 3) = 0)

/-- Window 2's index map, decided over the 17 grid points: point t's block index is (t, 0, 0). -/
private theorem blockIndex2 : ∀ t : Fin cfg0.N, win0_2.index t (0 : Fin 3) = t.val ∧ win0_2.index t (1 : Fin 3) = 0 ∧ win0_2.index t (2 : Fin 3) = 0 :=
  (by decide +kernel : ∀ t : Fin grid0.N, win0_2.index t (0 : Fin 3) = t.val ∧ win0_2.index t (1 : Fin 3) = 0 ∧ win0_2.index t (2 : Fin 3) = 0)

/-- Operand 0 as the region finds it: argument 0 reshaped. -/
theorem V_main_v0 (c : Dev nD) : (V m c main_v0 : S272x256x256.Idx → Elt F .f32) = shapeCast S272x256x256 (m ((c : Thread nD τ).loc main_arg0)) shapeCasts_S16x17x256x256_S272x256x256 := by
  dsimp only [V, V0]
  simp only [hostOps0, List.flatten_cons, List.flatten_nil, List.append_nil]
  after_results
  rfl

/-- Window 0's block at point t, read at block coordinates: plane 16 t + a of the reshaped array. -/
theorem iblk0_at (c : Dev nD) (t : Fin cfg0.N) (a : Fin 16) (b : Fin 256) (k : Fin 256) :
    (iblk m c 0 t : S16x256x256.Idx → Elt F .f32) (ValueIdx.ix3 a b k)
      = (V m c main_v0 : S272x256x256.Idx → Elt F .f32) (ValueIdx.ix3 (⟨16 * t.val + a.val, by have := t.isLt; have h : cfg0.N = 17 := N_0; omega⟩ : Fin 272) b k) := by
  unfold iblk
  show (V m c main_v0 : S272x256x256.Idx → Elt F .f32) (((cfg0.win 0).blk t).view.emb (ValueIdx.ix3 a b k)) = _
  obtain ⟨e0, e1, e2⟩ := blockIndex0 t
  refine congrArg (V m c main_v0 : S272x256x256.Idx → Elt F .f32) ?_
  -- on each axis the array coordinate is (block index) × (block extent) + 1 × (coordinate inside the block)
  funext ax; apply Fin.ext
  match ax with
  | ⟨0, _⟩ => show win0_0.index t (0 : Fin 3) * 16 + 1 * a.val = 16 * t.val + a.val; omega
  | ⟨1, _⟩ => show win0_0.index t (1 : Fin 3) * 256 + 1 * b.val = b.val; omega
  | ⟨2, _⟩ => show win0_0.index t (2 : Fin 3) * 256 + 1 * k.val = k.val; omega

/-- Operand 1 as the region finds it: argument 1 reshaped. -/
theorem V_main_v1 (c : Dev nD) : (V m c main_v1 : S272x256x256.Idx → Elt F .f32) = shapeCast S272x256x256 (m ((c : Thread nD τ).loc main_arg1)) shapeCasts_S16x17x256x256_S272x256x256 := by
  dsimp only [V, V0]
  simp only [hostOps0, List.flatten_cons, List.flatten_nil, List.append_nil]
  after_results
  rfl

/-- Window 1's block at point t, read at block coordinates: plane 16 t + a of the reshaped array. -/
theorem iblk1_at (c : Dev nD) (t : Fin cfg0.N) (a : Fin 16) (b : Fin 256) (k : Fin 256) :
    (iblk m c 1 t : S16x256x256.Idx → Elt F .f32) (ValueIdx.ix3 a b k)
      = (V m c main_v1 : S272x256x256.Idx → Elt F .f32) (ValueIdx.ix3 (⟨16 * t.val + a.val, by have := t.isLt; have h : cfg0.N = 17 := N_0; omega⟩ : Fin 272) b k) := by
  unfold iblk
  show (V m c main_v1 : S272x256x256.Idx → Elt F .f32) (((cfg0.win 1).blk t).view.emb (ValueIdx.ix3 a b k)) = _
  obtain ⟨e0, e1, e2⟩ := blockIndex1 t
  refine congrArg (V m c main_v1 : S272x256x256.Idx → Elt F .f32) ?_
  -- on each axis the array coordinate is (block index) × (block extent) + 1 × (coordinate inside the block)
  funext ax; apply Fin.ext
  match ax with
  | ⟨0, _⟩ => show win0_1.index t (0 : Fin 3) * 16 + 1 * a.val = 16 * t.val + a.val; omega
  | ⟨1, _⟩ => show win0_1.index t (1 : Fin 3) * 256 + 1 * b.val = b.val; omega
  | ⟨2, _⟩ => show win0_1.index t (2 : Fin 3) * 256 + 1 * k.val = k.val; omega

/-- Operand 2 as the region finds it: argument 2 reshaped. -/
theorem V_main_v2 (c : Dev nD) : (V m c main_v2 : S272x256x256.Idx → Elt F .f32) = shapeCast S272x256x256 (m ((c : Thread nD τ).loc main_arg2)) shapeCasts_S16x17x256x256_S272x256x256 := by
  dsimp only [V, V0]
  simp only [hostOps0, List.flatten_cons, List.flatten_nil, List.append_nil]
  after_results
  rfl

/-- Window 2's block at point t, read at block coordinates: plane 16 t + a of the reshaped array. -/
theorem iblk2_at (c : Dev nD) (t : Fin cfg0.N) (a : Fin 16) (b : Fin 256) (k : Fin 256) :
    (iblk m c 2 t : S16x256x256.Idx → Elt F .f32) (ValueIdx.ix3 a b k)
      = (V m c main_v2 : S272x256x256.Idx → Elt F .f32) (ValueIdx.ix3 (⟨16 * t.val + a.val, by have := t.isLt; have h : cfg0.N = 17 := N_0; omega⟩ : Fin 272) b k) := by
  unfold iblk
  show (V m c main_v2 : S272x256x256.Idx → Elt F .f32) (((cfg0.win 2).blk t).view.emb (ValueIdx.ix3 a b k)) = _
  obtain ⟨e0, e1, e2⟩ := blockIndex2 t
  refine congrArg (V m c main_v2 : S272x256x256.Idx → Elt F .f32) ?_
  -- on each axis the array coordinate is (block index) × (block extent) + 1 × (coordinate inside the block)
  funext ax; apply Fin.ext
  match ax with
  | ⟨0, _⟩ => show win0_2.index t (0 : Fin 3) * 16 + 1 * a.val = 16 * t.val + a.val; omega
  | ⟨1, _⟩ => show win0_2.index t (1 : Fin 3) * 256 + 1 * b.val = b.val; omega
  | ⟨2, _⟩ => show win0_2.index t (2 : Fin 3) * 256 + 1 * k.val = k.val; omega

end Cert.KernelIdeal.Fr

end
-- ==== Proof.SumBlocks.lean ====
import Idealize.ShloMosaic.Lib.ValueIdx
import Idealize.ShloMosaic.Lib.Pipeline.Value
import Mathlib.Algebra.BigOperators.Group.Finset.Defs
import Mathlib.Data.Fintype.BigOperators

/-!
# One finite sum, grouped two ways

An array of shape `[16, 17, 256, 256]` read in row-major order is also an array of shape `[272, 256, 256]`. The 272
planes of the second form are cut into 17 consecutive blocks of 16: block `t` holds planes `16 t`, …, `16 t + 15`.
Summing every entry of the first form is the same as summing, block by block, every entry of the second form. Three
re-indexings of one finite sum do it, and each is a bijection of the index set, so nothing but commutativity and
associativity of `+` is used: the statement holds in every commutative additive monoid (the extended reals with both
infinities among them).

* the row-major matching of the two shapes is a bijection between their index sets;
* an index of the rank-3 shape is the triple of its coordinates;
* a plane number `k < 272` is `16 t + a` for exactly one `t < 17` and `a < 16` (quotient and remainder by 16).
-/

noncomputable section
open scoped BigOperators
namespace Cert.Blocks
open Idealize.ShloMosaic

abbrev A4 : Shape := ⟨4, ![16, 17, 256, 256]⟩
abbrev A3 : Shape := ⟨3, ![272, 256, 256]⟩

/-- Plane `a` of grid point `t`'s block is plane `16 t + a` of the 272. -/
def plane (t : Fin 17) (a : Fin 16) : Fin 272 := ⟨16 * t.val + a.val, by omega⟩

/-- A rank-3 index set is the product of its three coordinate ranges … -/
private def idxEquiv3 {n0 n1 n2 : Nat} : (⟨3, ![n0, n1, n2]⟩ : Shape).Idx ≃ Fin n0 × Fin n1 × Fin n2 where
  toFun i := (i 0, i 1, i 2)
  invFun p := ValueIdx.ix3 p.1 p.2.1 p.2.2
  left_inv i := (ValueIdx.eq_ix3 i).symm
  right_inv _ := rfl

/-- … so a sum over it is the triple sum over the coordinates. -/
private theorem sum_idx3 {M : Type} [AddCommMonoid M] {n0 n1 n2 : Nat} (f : (⟨3, ![n0, n1, n2]⟩ : Shape).Idx → M) :
    ∑ i, f i = ∑ a : Fin n0, ∑ b : Fin n1, ∑ c : Fin n2, f (ValueIdx.ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Quotient and remainder by 16: a plane number below 272 is `16 t + a` for exactly one block `t < 17` and one place
    `a < 16` in it. -/
private def planeEquiv : Fin 17 × Fin 16 ≃ Fin 272 where
  toFun p := plane p.1 p.2
  invFun k := (⟨k.val / 16, by omega⟩, ⟨k.val % 16, by omega⟩)
  left_inv p := by
    obtain ⟨t, a⟩ := p
    refine Prod.ext (Fin.ext ?_) (Fin.ext ?_)
    · show (16 * t.val + a.val) / 16 = t.val
      omega
    · show (16 * t.val + a.val) % 16 = a.val
      omega
  right_inv k := by
    refine Fin.ext ?_
    show 16 * (k.val / 16) + k.val % 16 = k.val
    omega

/-- A sum over the 272 planes is the sum over the 17 blocks of the sum over each block's 16 planes. -/
private theorem sum_planes {M : Type} [AddCommMonoid M] (g : Fin 272 → M) :
    ∑ k : Fin 272, g k = ∑ t : Fin 17, ∑ a : Fin 16, g (plane t a) := by
  rw [← Equiv.sum_comp planeEquiv g, Fintype.sum_prod_type]
  rfl

/-- A sum over every entry of the [16,17,256,256] array is the sum, over the 17 grid points and the block coordinates, of the reshaped array's entries. -/
theorem sum_by_blocks {M : Type} [AddCommMonoid M] (u : A4.Idx → M) (h : A4.ShapeCasts A3) :
    ∑ j : A4.Idx, u j = ∑ t : Fin 17, ∑ a : Fin 16, ∑ b : Fin 256, ∑ c : Fin 256, shapeCast A3 u h (ValueIdx.ix3 (plane t a) b c) := by
  -- the reshaped array lists the same entries: its index set matches the original's one to one
  have h1 : ∑ j : A4.Idx, u j = ∑ k : A3.Idx, shapeCast A3 u h k :=
    (Equiv.sum_comp (Shape.reshapeEquiv h) u).symm
  -- by coordinates: plane, row, column
  have h2 : ∑ k : A3.Idx, shapeCast A3 u h k
      = ∑ p : Fin 272, ∑ b : Fin 256, ∑ c : Fin 256, shapeCast A3 u h (ValueIdx.ix3 p b c) :=
    sum_idx3 (shapeCast A3 u h)
  -- the planes by blocks of 16
  rw [h1, h2]
  exact sum_planes fun p => ∑ b : Fin 256, ∑ c : Fin 256, shapeCast A3 u h (ValueIdx.ix3 p b c)

end Cert.Blocks
end
-- ==== Proof.IdealTotal.lean ====
/-
  From block sums to the whole-array sum. Entry (a, b, k) of grid point t's block of an operand is entry
  (16 t + a, b, k) of that operand's [272,256,256] reshape, and a reshape only renames indices; so s(0) + … + s(16) is
  the sum, over the 17 points and the block coordinates, of the reshaped masked squared error, which is the sum of
  the masked squared error over every entry of the [16,17,256,256] arguments. Only commutativity and associativity
  of + on the extended reals are used: no finiteness.
-/
import proofs.«168725_j1597727834375_1_alg».proof.Proof.IdealValue
import proofs.«168725_j1597727834375_1_alg».proof.Proof.IdealBlocks
import proofs.«168725_j1597727834375_1_alg».proof.Proof.SumBlocks
import Mathlib.Algebra.BigOperators.Group.Finset.Basic
import Mathlib.Algebra.BigOperators.Fin

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- @main's first three arguments as launched. -/
abbrev arg0 (c : Dev nD) : S16x17x256x256.Idx → EReal := m ((c : Thread nD τ).loc main_arg0)
abbrev arg1 (c : Dev nD) : S16x17x256x256.Idx → EReal := m ((c : Thread nD τ).loc main_arg1)
abbrev arg2 (c : Dev nD) : S16x17x256x256.Idx → EReal := m ((c : Thread nD τ).loc main_arg2)

/-- The masked squared error, entry by entry. -/
def errAt (c : Dev nD) (j : S16x17x256x256.Idx) : EReal := Pay.err (arg0 m c j) (arg1 m c j) (arg2 m c j)

/-- s(t) over the reshaped error: a reshape commutes with an entrywise function. -/
theorem bsum_eq (c : Dev nD) (t : Fin 17) :
    bsum m c ⟨t.val, lt_of_lt_of_eq t.isLt N_0.symm⟩
      = ∑ a : Fin 16, ∑ b : Fin 256, ∑ k : Fin 256,
          shapeCast Blocks.A3 (errAt m c) shapeCasts_S16x17x256x256_S272x256x256 (ValueIdx.ix3 (Blocks.plane t a) b k) := by
  unfold bsum
  refine Finset.sum_congr rfl fun a _ => Finset.sum_congr rfl fun b _ => Finset.sum_congr rfl fun k _ => ?_
  show Pay.err (iblk m c 0 _ (ValueIdx.ix3 a b k)) (iblk m c 1 _ (ValueIdx.ix3 a b k)) (iblk m c 2 _ (ValueIdx.ix3 a b k)) = _
  rw [iblk0_at, iblk1_at, iblk2_at, V_main_v0, V_main_v1, V_main_v2]
  rfl

/-- s(0) + … + s(16) is the masked squared error summed over every entry of the arguments. -/
theorem total_eq (c : Dev nD) : ∑ s ∈ Finset.range 17, bsumN m c s = ∑ j : S16x17x256x256.Idx, errAt m c j := by
  rw [Finset.sum_range]
  refine ((Finset.sum_congr rfl fun t _ => ?_).trans (Blocks.sum_by_blocks (errAt m c) shapeCasts_S16x17x256x256_S272x256x256).symm)
  exact (bsumN_of_lt m c ⟨t.val, lt_of_lt_of_eq t.isLt N_0.symm⟩).trans (bsum_eq m c t)

/-- The pipeline's output array after the run holds, in its one entry, the masked squared error summed over every entry. -/
theorem out_total (c : Dev nD) :
    ((dats m 0 c).arrAt 3 cfg0.N : S1x1.Idx → Elt Ideal .f32) o11 = ∑ j : S16x17x256x256.Idx, errAt m c j :=
  (out_final m c).trans (total_eq m c)

end Cert.KernelIdeal.Fr

end
-- ==== Proof.IdealBridge.lean ====
/-
  The heat-map loss on both sides. The reference multiplies (prediction − target)² by the mask entry by entry, sums
  every entry of the [16,17,256,256] result from zero, divides by the entry count and multiplies by one. The kernel's
  program recasts the pipeline's 1×1 output, which holds that same sum, to a scalar and applies the same division
  and multiplication with the same two constants. So the two first results agree whenever the first three arguments do.
-/
import proofs.«168725_j1597727834375_1_alg».proof.Proof.IdealTotal
import proofs.«168725_j1597727834375_1_alg».proof.Proof.Gen.ReferenceIdeal
import Idealize.ShloMosaic.PureOps.Ideal.Laws
import Idealize.ShloMosaic.Lib.ValueIdx
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- The reference's sum over all four axes from a zero start, at the ideal instance, is the plain sum. -/
theorem ref_sum (y : Cert.ReferenceIdeal.S16x17x256x256.Idx → EReal) (i : Cert.ReferenceIdeal.S_.Idx) :
    Host.reduceAdd (F := Ideal) y (constant Cert.ReferenceIdeal.S_ .f32 0x00000000#32) Cert.ReferenceIdeal.Facts₀.reducesTo_S16x17x256x256_S_d0_1_2_3 Cert.ReferenceIdeal.Facts₀.h_S_ i = ∑ j, y j := by
  simp only [Host.reduceAdd, Ideal.hostReduceAdd_def]
  refine (Ideal.hostReduceAdd_total Cert.ReferenceIdeal.Facts₀.reducesTo_S16x17x256x256_S_d0_1_2_3 (fun b => b.elim0) y _ i).trans ?_
  rw [ValueIdx.constant_apply, Ideal.ofBits_zero_f32, zero_add]

/-- The pipeline's output recast to a scalar is the reference's sum of the masked squared error, when the arguments agree. -/
theorem scalar_eq (c : Dev nD) (a0 a1 a2 : Cert.ReferenceIdeal.S16x17x256x256.Idx → EReal)
    (h0 : a0 = arg0 m c) (h1 : a1 = arg1 m c) (h2 : a2 = arg2 m c) :
    shapeCast S_ ((dats m 0 c).arrAt 3 cfg0.N : S1x1.Idx → Elt Ideal .f32) shapeCasts_S1x1_S_
      = Host.reduceAdd (F := Ideal) (mulf (mulf (subf a0 a1) (subf a0 a1)) a2) (constant Cert.ReferenceIdeal.S_ .f32 0x00000000#32) Cert.ReferenceIdeal.Facts₀.reducesTo_S16x17x256x256_S_d0_1_2_3 Cert.ReferenceIdeal.Facts₀.h_S_ := by
  subst h0 h1 h2
  funext i
  rw [ref_sum]
  refine (shapeCast_apply _ shapeCasts_S1x1_S_ i o11 (by
    have hi : i = ValueIdx.ix0 := ValueIdx.eq_ix0 i
    subst hi; rfl)).trans ?_
  exact out_total m c

/-- The first results agree: the same scaling of equal scalars. -/
theorem result0_eq (c : Dev nD) (a0 a1 a2 : Cert.ReferenceIdeal.S16x17x256x256.Idx → EReal)
    (h0 : a0 = arg0 m c) (h1 : a1 = arg1 m c) (h2 : a2 = arg2 m c) :
    mulf (Host.divf (Host.reduceAdd (F := Ideal) (mulf (mulf (subf a0 a1) (subf a0 a1)) a2) (constant Cert.ReferenceIdeal.S_ .f32 0x00000000#32) Cert.ReferenceIdeal.Facts₀.reducesTo_S16x17x256x256_S_d0_1_2_3 Cert.ReferenceIdeal.Facts₀.h_S_) (constant Cert.ReferenceIdeal.S_ .f32 0x4B880000#32)) (constant Cert.ReferenceIdeal.S_ .f32 0x3F800000#32)
      = mulf (Host.divf (shapeCast S_ ((dats m 0 c).arrAt 3 cfg0.N : S1x1.Idx → Elt Ideal .f32) shapeCasts_S1x1_S_) (constant S_ .f32 0x4B880000#32)) (constant S_ .f32 0x3F800000#32) := by
  rw [scalar_eq m c a0 a1 a2 h0 h1 h2]

end Cert.KernelIdeal.Fr

end
-- ==== Proof.IdealTailValue.lean ====
/-
  What the 108 host operations after the region compute, read at @main's three results. The first result is the
  pipeline's 1×1 output recast to a scalar, divided by the entry count 17,825,792 and multiplied by one. The other two
  (the push and pull tag losses) never read the pipeline's output: they are the same chain of operations the reference
  applies to the tag map and the joint table, so they equal the reference's terms as soon as those two inputs agree.
-/
import proofs.«168725_j1597727834375_1_alg».proof.Proof.IdealKit
import proofs.«168725_j1597727834375_1_alg».proof.Proof.RefRun
import Idealize.ShloMosaic.Lib.ValueIdx
import Idealize.ShloMosaic.Lib.Pipeline.Value
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## What the operations after the region read -/

/-- The pipeline's 1×1 output array is what the region left in it. -/
theorem v3_read (dats : (p : Fin 1) → (c : Dev nD) → Dat τ (Elt F) Unit ℕ (UR sig nD τ) ℕ (cfgs p) c) (c : Dev nD) :
    Pipeline.withArrays (cfgs 0).spec c (V0 m c) (fun w => (dats 0 c).arrAt w (cfgs 0).N) (Proc.devRef .tc main_v3)
      = (dats 0 c).arrAt 3 cfg0.N :=
  Pipeline.withArrays_arr spec0 launch0.win.arr_inj c _ _ 3

/-- The tag map is no window's array and none of the three reshapes before the region writes it: it still holds its
    launch contents. -/
theorem arg3_read (dats : (p : Fin 1) → (c : Dev nD) → Dat τ (Elt F) Unit ℕ (UR sig nD τ) ℕ (cfgs p) c) (c : Dev nD) :
    Pipeline.withArrays (cfgs 0).spec c (V0 m c) (fun w => (dats 0 c).arrAt w (cfgs 0).N) (Proc.devRef .tc main_arg3)
      = m ((c.tc : Thread nD τ).loc main_arg3) :=
  (Pipeline.withArrays_of_ne _ c _ _ main_arg3 (by decide)).trans (by
    simp only [V0, hostOps0, List.flatten_cons, List.flatten_nil, List.append_nil, List.cons_append, List.nil_append]
    after_results)

/-- The joint table likewise. -/
theorem arg4_read (dats : (p : Fin 1) → (c : Dev nD) → Dat τ (Elt F) Unit ℕ (UR sig nD τ) ℕ (cfgs p) c) (c : Dev nD) :
    Pipeline.withArrays (cfgs 0).spec c (V0 m c) (fun w => (dats 0 c).arrAt w (cfgs 0).N) (Proc.devRef .tc main_arg4)
      = m ((c.tc : Thread nD τ).loc main_arg4) :=
  (Pipeline.withArrays_of_ne _ c _ _ main_arg4 (by decide)).trans (by
    simp only [V0, hostOps0, List.flatten_cons, List.flatten_nil, List.append_nil, List.cons_append, List.nil_append]
    after_results)

/-! ## The three results -/

/-- The loss's scaling after the region, over whatever the pipeline left in its 1×1 output array. -/
theorem tail_v6 (dats : (p : Fin 1) → (c : Dev nD) → Dat τ (Elt F) Unit ℕ (UR sig nD τ) ℕ (cfgs p) c) (c : Dev nD) :
    Pipeline.afterTail₀ cfgs dats 0 (V0 m) tailOps c main_v6
      = mulf (Host.divf (shapeCast S_ ((dats 0 c).arrAt 3 cfg0.N : S1x1.Idx → Elt F .f32) shapeCasts_S1x1_S_) (constant S_ .f32 0x4B880000#32)) (constant S_ .f32 0x3F800000#32) := by
  unfold Pipeline.afterTail₀
  simp only [tailOps, hostOps1, hostOps1_1, hostOps1_2, hostOps1_3, hostOps1_4, hostOps1_5, hostOps1_6, List.flatten_cons, List.flatten_nil, List.append_nil, List.cons_append, List.nil_append]
  -- of the 108 operations only the first five bear on this result: a recast of the output array, a division, a product
  after_results_simp
  rw [v3_read]
  rfl

set_option maxHeartbeats 8000000 in
/-- The push loss after the region is the reference's term of the same tag map and joint table. -/
theorem tail_v73 (dats : (p : Fin 1) → (c : Dev nD) → Dat τ (Elt F) Unit ℕ (UR sig nD τ) ℕ (cfgs p) c) (c : Dev nD)
    (m' : (ℓ : Loc Cert.ReferenceIdeal.nD Cert.ReferenceIdeal.τ Cert.ReferenceIdeal.sig) → Buf (Elt F) ℓ)
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4)) :
    Pipeline.afterTail₀ cfgs dats 0 (V0 m) tailOps c main_v73 = Cert.ReferenceIdeal.ValueP.res_main_v72 m' c := by
  unfold Pipeline.afterTail₀
  simp only [tailOps, hostOps1, hostOps1_1, hostOps1_2, hostOps1_3, hostOps1_4, hostOps1_5, hostOps1_6, List.flatten_cons, List.flatten_nil, List.append_nil, List.cons_append, List.nil_append]
  -- the operations' composed term over what they read of the region's exit contents
  after_results_simp
  -- the two reads are of the launch contents, which are the reference's by hypothesis
  rw [arg3_read m dats c, arg4_read m dats c]
  unfold Cert.ReferenceIdeal.ValueP.res_main_v72
  rw [h3, h4]
  -- a called function's operands and result pass through a transport along `rfl`
  simp only [StableHlo.TRef.ofBuf, StableHlo.TRef.toBuf, cast_eq]
  rfl

set_option maxHeartbeats 8000000 in
/-- The pull loss after the region likewise. -/
theorem tail_v76 (dats : (p : Fin 1) → (c : Dev nD) → Dat τ (Elt F) Unit ℕ (UR sig nD τ) ℕ (cfgs p) c) (c : Dev nD)
    (m' : (ℓ : Loc Cert.ReferenceIdeal.nD Cert.ReferenceIdeal.τ Cert.ReferenceIdeal.sig) → Buf (Elt F) ℓ)
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4)) :
    Pipeline.afterTail₀ cfgs dats 0 (V0 m) tailOps c main_v76 = Cert.ReferenceIdeal.ValueP.res_main_v75 m' c := by
  unfold Pipeline.afterTail₀
  simp only [tailOps, hostOps1, hostOps1_1, hostOps1_2, hostOps1_3, hostOps1_4, hostOps1_5, hostOps1_6, List.flatten_cons, List.flatten_nil, List.append_nil, List.cons_append, List.nil_append]
  -- the operations' composed term over what they read of the region's exit contents
  after_results_simp
  -- the two reads are of the launch contents, which are the reference's by hypothesis
  rw [arg3_read m dats c, arg4_read m dats c]
  unfold Cert.ReferenceIdeal.ValueP.res_main_v75
  rw [h3, h4]
  -- a called function's operands and result pass through a transport along `rfl`
  simp only [StableHlo.TRef.ofBuf, StableHlo.TRef.toBuf, cast_eq]
  rfl

end Cert.KernelIdeal.Fr

end
-- ==== Proof.Claims.lean ====
/-
  The five claims. Both printed programs of the kernel run to the end, fault nowhere and leave the five arguments as
  launched (the frame of the pipeline with its carried accumulator, and of the host operations around it); the
  reference does too (its run, read back). The idealization rewrote nothing, so there is nothing to preserve. And at
  the ideal instance the three results agree: the heat-map loss because the accumulated block sums are the whole-array
  sum (associativity and commutativity of + on the extended reals; the same division by 17,825,792 and
  multiplication by one on both sides), the push and pull tag losses because both programs apply the same chain of
  host operations to the same tag map and joint table.
-/
import proofs.«168725_j1597727834375_1_alg».proof.Defs
import proofs.«168725_j1597727834375_1_alg».proof.Proof.Gen.Kernel
import proofs.«168725_j1597727834375_1_alg».proof.Proof.Gen.KernelIdeal
import proofs.«168725_j1597727834375_1_alg».proof.Proof.Gen.ReferenceIdeal
import proofs.«168725_j1597727834375_1_alg».proof.Proof.Gen.Pre_finite_inputs
import proofs.«168725_j1597727834375_1_alg».proof.Proof.BitsRun
import proofs.«168725_j1597727834375_1_alg».proof.Proof.IdealRun
import proofs.«168725_j1597727834375_1_alg».proof.Proof.IdealBridge
import proofs.«168725_j1597727834375_1_alg».proof.Proof.IdealTailValue
import proofs.«168725_j1597727834375_1_alg».proof.Proof.RefRun

noncomputable section

namespace Cert.Proof.Claims

open Idealize.ShloMosaic Idealize.ShloMosaic.TcCoe Idealize.SL.Sem

/-- The word-level program's frame. -/
theorem frame_k : Cert.frame_Kernel := fun m ρ _ => Cert.Kernel.Fr.frame m ρ

/-- The idealized program's frame. -/
theorem frame_ki : Cert.frame_KernelIdeal := fun m ρ _ => Cert.KernelIdeal.Fr.frame m ρ

/-- The reference's frame: its run, with the results dropped. -/
theorem frame_ri : Cert.frame_ReferenceIdeal := fun m ρ _ =>
  (θ_run Cert.ReferenceIdeal.defs _ _).mono (fun _ h c => (h c).2.2.2) (Cert.ReferenceIdeal.ValueP.run (F := Ideal) m ρ)

/-- Equal results at the ideal instance, from memories that agree on the arguments. -/
theorem algebraic : Cert.algebraic_KernelIdeal_ReferenceIdeal := by
  intro m ρ m' ρ' _ hagree
  refine ⟨fun c => Pipeline.afterTail₀ Cert.KernelIdeal.cfgs (Cert.KernelIdeal.Fr.dats m) 0 (Cert.KernelIdeal.Fr.V0 m) Cert.KernelIdeal.Fr.tailOps c Cert.KernelIdeal.main_v6, fun c => Pipeline.afterTail₀ Cert.KernelIdeal.cfgs (Cert.KernelIdeal.Fr.dats m) 0 (Cert.KernelIdeal.Fr.V0 m) Cert.KernelIdeal.Fr.tailOps c Cert.KernelIdeal.main_v73, fun c => Pipeline.afterTail₀ Cert.KernelIdeal.cfgs (Cert.KernelIdeal.Fr.dats m) 0 (Cert.KernelIdeal.Fr.V0 m) Cert.KernelIdeal.Fr.tailOps c Cert.KernelIdeal.main_v76, ?_, ?_⟩
  · refine (θ_run Cert.KernelIdeal.defs _ _).mono (fun r h c => ⟨
      (h c).2 Cert.KernelIdeal.main_v6 (Pipeline.mem_restRefs_of Cert.KernelIdeal.main_v6 (by decide) (by decide)),
      (h c).2 Cert.KernelIdeal.main_v73 (Pipeline.mem_restRefs_of Cert.KernelIdeal.main_v73 (by decide) (by decide)),
      (h c).2 Cert.KernelIdeal.main_v76 (Pipeline.mem_restRefs_of Cert.KernelIdeal.main_v76 (by decide) (by decide)),
      ((h c).2 Cert.KernelIdeal.main_arg0 (Pipeline.mem_restRefs_of Cert.KernelIdeal.main_arg0 (by decide) (by decide))).trans (Cert.KernelIdeal.Fr.W_main_arg0 m (Cert.KernelIdeal.Fr.dats m) c),
      ((h c).2 Cert.KernelIdeal.main_arg1 (Pipeline.mem_restRefs_of Cert.KernelIdeal.main_arg1 (by decide) (by decide))).trans (Cert.KernelIdeal.Fr.W_main_arg1 m (Cert.KernelIdeal.Fr.dats m) c),
      ((h c).2 Cert.KernelIdeal.main_arg2 (Pipeline.mem_restRefs_of Cert.KernelIdeal.main_arg2 (by decide) (by decide))).trans (Cert.KernelIdeal.Fr.W_main_arg2 m (Cert.KernelIdeal.Fr.dats m) c),
      ((h c).2 Cert.KernelIdeal.main_arg3 (Pipeline.mem_restRefs_of Cert.KernelIdeal.main_arg3 (by decide) (by decide))).trans (Cert.KernelIdeal.Fr.W_main_arg3 m (Cert.KernelIdeal.Fr.dats m) c),
      ((h c).2 Cert.KernelIdeal.main_arg4 (Pipeline.mem_restRefs_of Cert.KernelIdeal.main_arg4 (by decide) (by decide))).trans (Cert.KernelIdeal.Fr.W_main_arg4 m (Cert.KernelIdeal.Fr.dats m) c)⟩)
      (Cert.KernelIdeal.Fr.run_main m ρ)
  · refine (θ_run Cert.ReferenceIdeal.defs _ _).mono (fun r h c => ⟨(h c).1.trans ?_, (h c).2.1.trans ?_, (h c).2.2.1.trans ?_, (h c).2.2.2⟩)
      (Cert.ReferenceIdeal.ValueP.run (F := Ideal) m' ρ')
    · exact (Cert.KernelIdeal.Fr.result0_eq m c _ _ _ (hagree c).1 (hagree c).2.1 (hagree c).2.2.1).trans (Cert.KernelIdeal.Fr.tail_v6 (F := Ideal) m (Cert.KernelIdeal.Fr.dats m) c).symm
    · exact (Cert.KernelIdeal.Fr.tail_v73 (F := Ideal) m (Cert.KernelIdeal.Fr.dats m) c m' (hagree c).2.2.2.1 (hagree c).2.2.2.2).symm
    · exact (Cert.KernelIdeal.Fr.tail_v76 (F := Ideal) m (Cert.KernelIdeal.Fr.dats m) c m' (hagree c).2.2.2.1 (hagree c).2.2.2.2).symm

end Cert.Proof.Claims

end
-- ==== Proof.lean ====
/-
  The certificate: the witnesses of the programs' stated side conditions, then the five claims (Proof/Claims.lean).
-/
import proofs.«168725_j1597727834375_1_alg».proof.Defs
import proofs.«168725_j1597727834375_1_alg».proof.Proof.Gen.Kernel
import proofs.«168725_j1597727834375_1_alg».proof.Proof.Gen.Kernel.Skeleton
import proofs.«168725_j1597727834375_1_alg».proof.Proof.Gen.Kernel.Launch
import proofs.«168725_j1597727834375_1_alg».proof.Proof.Gen.Kernel.Points
import proofs.«168725_j1597727834375_1_alg».proof.Proof.Gen.KernelIdeal
import proofs.«168725_j1597727834375_1_alg».proof.Proof.Gen.KernelIdeal.Skeleton
import proofs.«168725_j1597727834375_1_alg».proof.Proof.Gen.KernelIdeal.Launch
import proofs.«168725_j1597727834375_1_alg».proof.Proof.Gen.KernelIdeal.Points
import proofs.«168725_j1597727834375_1_alg».proof.Proof.Gen.ReferenceIdeal
import proofs.«168725_j1597727834375_1_alg».proof.Proof.Gen.Pre_finite_inputs
import proofs.«168725_j1597727834375_1_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, trivial, Claims.algebraic⟩

end Cert.Proof

end
